-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x64 : Shape := ⟨2, ![512, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_arg2 : IVec S1600000 32) (main_v65 : IVec S_ 1) (main_v66 : IVec S1600000 32) : IVec S_ 1 :=
  let main_v67 : IVec S1600000 1 := cmpi .slt main_arg2 main_v66
  let main_c_27 : IVec S_ 1 := constantI S_ 1 1#1
  let main_v68 : IVec S_ 1 := (fun x v => Host.reduce IntOp.andi x v reducesTo_S1600000_S_d0 h_S_) main_v67 main_c_27
  let main_v69 : IVec S_ 1 := andi main_v65 main_v68
  main_v69

def fn_part3 {F : FTy → Type} [FloatOps F] (main_arg1 : IVec S1600000 32) (main_arg2 : IVec S1600000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_c_20 : IVec S_ 32 := constantI S_ 32 0#32
  let main_v54 : IVec S1600000 32 := broadcastInDim S1600000 ![] bcast_S_S1600000 main_c_20
  let main_v55 : IVec S1600000 1 := cmpi .sge main_arg1 main_v54
  let main_c_21 : IVec S_ 1 := constantI S_ 1 1#1
  let main_v56 : IVec S_ 1 := (fun x v => Host.reduce IntOp.andi x v reducesTo_S1600000_S_d0 h_S_) main_v55 main_c_21
  let main_v57 : IVec S_ 1 := andi main_v53 main_v56
  let main_c_22 : IVec S_ 32 := constantI S_ 32 100000#32
  let main_v58 : IVec S1600000 32 := broadcastInDim S1600000 ![] bcast_S_S1600000 main_c_22
  let main_v59 : IVec S1600000 1 := cmpi .slt main_arg1 main_v58
  let main_c_23 : IVec S_ 1 := constantI S_ 1 1#1
  let main_v60 : IVec S_ 1 := (fun x v => Host.reduce IntOp.andi x v reducesTo_S1600000_S_d0 h_S_) main_v59 main_c_23
  let main_v61 : IVec S_ 1 := andi main_v57 main_v60
  let main_c_24 : IVec S_ 32 := constantI S_ 32 0#32
  let main_v62 : IVec S1600000 32 := broadcastInDim S1600000 ![] bcast_S_S1600000 main_c_24
  let main_v63 : IVec S1600000 1 := cmpi .sge main_arg2 main_v62
  let main_c_25 : IVec S_ 1 := constantI S_ 1 1#1
  let main_v64 : IVec S_ 1 := (fun x v => Host.reduce IntOp.andi x v reducesTo_S1600000_S_d0 h_S_) main_v63 main_c_25
  let main_v65 : IVec S_ 1 := andi main_v61 main_v64
  let main_c_26 : IVec S_ 32 := constantI S_ 32 100000#32
  let main_v66 : IVec S1600000 32 := broadcastInDim S1600000 ![] bcast_S_S1600000 main_c_26
  fn_part4 (F := F) main_arg2 main_v65 main_v66

def fn_part2 {F : FTy → Type} [FloatOps F] (main_arg1 : IVec S1600000 32) (main_arg2 : IVec S1600000 32) (main_arg9 : FVec F S64x64 .f32) (main_arg10 : FVec F S64 .f32) (main_arg11 : FVec F S64x64 .f32) (main_arg12 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg1 main_arg2 main_v48 main_v49 main_v50

def fn_part1 {F : FTy → Type} [FloatOps F] (main_arg1 : IVec S1600000 32) (main_arg2 : IVec S1600000 32) (main_arg6 : FVec F S512 .f32) (main_arg7 : FVec F S512x64 .f32) (main_arg8 : FVec F S64 .f32) (main_arg9 : FVec F S64x64 .f32) (main_arg10 : FVec F S64 .f32) (main_arg11 : FVec F S64x64 .f32) (main_arg12 : FVec F S64 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x64 .f32 := Host.absf main_arg7
  let main_cst_8 : FVec F S_ .f32 := constant S_ .f32 0x7F800000#32
  let main_v25 : FVec F S512x64 .f32 := broadcastInDim S512x64 ![] bcast_S_S512x64 main_cst_8
  let main_v26 : IVec S512x64 1 := cmpf .olt main_v24 main_v25
  let main_c_9 : IVec S_ 1 := constantI S_ 1 1#1
  let main_v27 : IVec S_ 1 := (fun x v => Host.reduce IntOp.andi x v reducesTo_S512x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg2 main_arg9 main_arg10 main_arg11 main_arg12 main_v33

def fn {F : FTy → Type} [FloatOps F] (main_arg0 : FVec F S100000x128 .f32) (main_arg1 : IVec S1600000 32) (main_arg2 : IVec S1600000 32) (main_arg3 : FVec F S128x256 .f32) (main_arg4 : FVec F S256 .f32) (main_arg5 : FVec F S256x512 .f32) (main_arg6 : FVec F S512 .f32) (main_arg7 : FVec F S512x64 .f32) (main_arg8 : FVec F S64 .f32) (main_arg9 : FVec F S64x64 .f32) (main_arg10 : FVec F S64 .f32) (main_arg11 : FVec F S64x64 .f32) (main_arg12 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x512 .f32 := Host.absf main_arg5
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg1 main_arg2 main_arg6 main_arg7 main_arg8 main_arg9 main_arg10 main_arg11 main_arg12 main_v13 main_v16
-- ==== Kernel.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x64 : Shape := ⟨2, ![512, 64]⟩
abbrev S64 : Shape := ⟨1, ![64]⟩
abbrev S64x64 : Shape := ⟨2, ![64, 64]⟩
abbrev S1x256 : Shape := ⟨2, ![1, 256]⟩
abbrev S1x512 : Shape := ⟨2, ![1, 512]⟩
abbrev S1x64 : Shape := ⟨2, ![1, 64]⟩
abbrev S100000x64 : Shape := ⟨2, ![100000, 64]⟩
abbrev S2000x128 : Shape := ⟨2, ![2000, 128]⟩
abbrev S2000x64 : Shape := ⟨2, ![2000, 64]⟩
abbrev S2000x256 : Shape := ⟨2, ![2000, 256]⟩
abbrev S2000x512 : Shape := ⟨2, ![2000, 512]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S8000x64 : Shape := ⟨2, ![8000, 64]⟩
abbrev S8000 : Shape := ⟨1, ![8000]⟩
abbrev S8000x1 : Shape := ⟨2, ![8000, 1]⟩

abbrev nBuf : Space → Nat
  | .hbm => 71
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x256, .f32⟩
  | .hbm, ⟨4, _⟩ => ⟨S256, .f32⟩
  | .hbm, ⟨5, _⟩ => ⟨S256x512, .f32⟩
  | .hbm, ⟨6, _⟩ => ⟨S512, .f32⟩
  | .hbm, ⟨7, _⟩ => ⟨S512x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S1x256, .f32⟩
  | .hbm, ⟨14, _⟩ => ⟨S1x512, .f32⟩
  | .hbm, ⟨15, _⟩ => ⟨S1x64, .f32⟩
  | .hbm, ⟨16, _⟩ => ⟨S100000x64, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1, .i32⟩
  | .hbm, ⟨26, _⟩ => ⟨S_, .i32⟩
  | .hbm, ⟨27, _⟩ => ⟨S1600000x1, .i32⟩
  | .hbm, ⟨28, _⟩ => ⟨S1600000x1, .i1⟩
  | .hbm, ⟨29, _⟩ => ⟨S1x1, .i32⟩
  | .hbm, ⟨30, _⟩ => ⟨S1600000x1, .i32⟩
  | .hbm, ⟨31, _⟩ => ⟨S1600000x1, .i1⟩
  | .hbm, ⟨32, _⟩ => ⟨S1600000x1, .i1⟩
  | .hbm, ⟨33, _⟩ => ⟨S_, .i1⟩
  | .hbm, ⟨34, _⟩ => ⟨S1600000, .i1⟩
  | .hbm, ⟨35, _⟩ => ⟨S1600000x64, .f32⟩
  | .hbm, ⟨36, _⟩ => ⟨S1600000x64, .i1⟩
  | .hbm, ⟨37, _⟩ => ⟨S_, .f32⟩
  | .hbm, ⟨38, _⟩ => ⟨S1600000x64, .f32⟩
  | .hbm, ⟨39, _⟩ => ⟨S1600000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1, .i32⟩
  | .hbm, ⟨49, _⟩ => ⟨S_, .i32⟩
  | .hbm, ⟨50, _⟩ => ⟨S1600000x1, .i32⟩
  | .hbm, ⟨51, _⟩ => ⟨S1600000x1, .i1⟩
  | .hbm, ⟨52, _⟩ => ⟨S1x1, .i32⟩
  | .hbm, ⟨53, _⟩ => ⟨S1600000x1, .i32⟩
  | .hbm, ⟨54, _⟩ => ⟨S1600000x1, .i1⟩
  | .hbm, ⟨55, _⟩ => ⟨S1600000x1, .i1⟩
  | .hbm, ⟨56, _⟩ => ⟨S_, .i1⟩
  | .hbm, ⟨57, _⟩ => ⟨S1600000, .i1⟩
  | .hbm, ⟨58, _⟩ => ⟨S1600000x64, .f32⟩
  | .hbm, ⟨59, _⟩ => ⟨S1600000x64, .i1⟩
  | .hbm, ⟨60, _⟩ => ⟨S_, .f32⟩
  | .hbm, ⟨61, _⟩ => ⟨S1600000x64, .f32⟩
  | .hbm, ⟨62, _⟩ => ⟨S1600000x64, .f32⟩
  | .hbm, ⟨63, _⟩ => ⟨S1x64, .f32⟩
  | .hbm, ⟨64, _⟩ => ⟨S1x64, .f32⟩
  | .hbm, ⟨65, _⟩ => ⟨S1600000x64, .f32⟩
  | .hbm, ⟨66, _⟩ => ⟨S_, .f32⟩
  | .hbm, ⟨67, _⟩ => ⟨S100000x64, .f32⟩
  | .hbm, ⟨68, _⟩ => ⟨S1600000x1, .i32⟩
  | .hbm, ⟨69, _⟩ => ⟨S100000x64, .f32⟩
  | .hbm, ⟨70, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S256x512, .f32⟩
  | .local _ .vmem, ⟨5, _⟩ => ⟨S1x512, .f32⟩
  | .local _ .vmem, ⟨6, _⟩ => ⟨S512x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S8000x64, .f32⟩
  | .local _ .vmem, ⟨11, _⟩ => ⟨S8000x64, .f32⟩
  | .local _ .vmem, ⟨12, _⟩ => ⟨S8000x64, .f32⟩
  | .local _ .vmem, ⟨13, _⟩ => ⟨S8000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S8000x64, .f32⟩
  | .local _ .vmem, ⟨19, _⟩ => ⟨S8000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_cst : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S256_S1x256 : S256.ShapeCasts S1x256
  shapeCasts_S512_S1x512 : S512.ShapeCasts S1x512
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x64_S64x64_0_0 : ∀ a, (![0, 0] : Fin 2 → Nat) a + S64x64.size a ≤ S64x64.size a
  h_S64x64 : 0 < S64x64.numel
  broadcasts_S1x64_S8000x64 : S1x64.Broadcasts S8000x64
  reduces_S8000x64_S8000 : S8000x64.Reduces [1] S8000
  shapeCasts_S8000_S8000x1 : S8000.ShapeCasts S8000x1
  broadcasts_S8000x1_S8000x64 : S8000x1.Broadcasts S8000x64
  bcast_S_S100000x64 : S_.BroadcastsInDim S100000x64 (![] : Fin 0 → Fin S100000x64.rank)
  concatenates_S100000x64_S100000x64_S100000x128_d1 : Shape.Concatenates [S100000x64, S100000x64] S100000x128 1
  dot_S2000x128_S128x256_S2000x256_1_0_0_1_n_n_wf : DotDims.WF S2000x128 S128x256 S2000x256 [1] [0] [0] [1] [] []
  dot_S2000x256_S256x512_S2000x512_1_0_0_1_n_n_wf : DotDims.WF S2000x256 S256x512 S2000x512 [1] [0] [0] [1] [] []
  dot_S2000x512_S512x64_S2000x64_1_0_0_1_n_n_wf : DotDims.WF S2000x512 S512x64 S2000x64 [1] [0] [0] [1] [] []
  gather_S100000x64_S1600000x1_S1600000x64_1_0_n_n_0_1_164_wf : GatherDims.WF S100000x64 S1600000x1 S1600000x64 [1] [0] [] [0] [] 1 ![1, 64]
  dot_S8000x64_S64x64_S8000x64_1_0_0_1_n_n_wf : DotDims.WF S8000x64 S64x64 S8000x64 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S512x64.size a
  hwx0_5 : ∀ i : grid0.Coords, EltTy.bits .f32 = 32 ∨ (Rect.block (s := S512x64) S512x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x64.size a ≤ S100000x64.size a
  hwx0_7 : ∀ i : grid0.Coords, EltTy.bits .f32 = 32 ∨ (Rect.block (s := S100000x64) S2000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1600000x64.size a
  hwx1_0 : ∀ i : grid1.Coords, EltTy.bits .f32 = 32 ∨ (Rect.block (s := S1600000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S1600000x64.size a
  hwx1_1 : ∀ i : grid1.Coords, EltTy.bits .f32 = 32 ∨ (Rect.block (s := S1600000x64) S8000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8000x64.size a ≤ S1600000x64.size a
  hwx1_6 : ∀ i : grid1.Coords, EltTy.bits .f32 = 32 ∨ (Rect.block (s := S1600000x64) S8000x64.size (cc1_transform_6 i) (hinb1_6 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S512x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S2000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v4) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S8000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x64 : Shape := ⟨2, ![512, 64]⟩
abbrev S64 : Shape := ⟨1, ![64]⟩
abbrev S64x64 : Shape := ⟨2, ![64, 64]⟩
abbrev S100000x256 : Shape := ⟨2, ![100000, 256]⟩
abbrev S1x256 : Shape := ⟨2, ![1, 256]⟩
abbrev S_ : Shape := ⟨0, ![]⟩
abbrev S100000x512 : Shape := ⟨2, ![100000, 512]⟩
abbrev S1x512 : Shape := ⟨2, ![1, 512]⟩
abbrev S100000x64 : Shape := ⟨2, ![100000, 64]⟩
abbrev S1x64 : Shape := ⟨2, ![1, 64]⟩
abbrev S1600000x1 : Shape := ⟨2, ![1600000, 1]⟩
abbrev S1600000x64 : Shape := ⟨2, ![1600000, 64]⟩

abbrev nBuf : Space → Nat
  | .hbm => 79
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x256, .f32⟩
  | .hbm, ⟨4, _⟩ => ⟨S256, .f32⟩
  | .hbm, ⟨5, _⟩ => ⟨S256x512, .f32⟩
  | .hbm, ⟨6, _⟩ => ⟨S512, .f32⟩
  | .hbm, ⟨7, _⟩ => ⟨S512x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S100000x256, .f32⟩
  | .hbm, ⟨14, _⟩ => ⟨S1x256, .f32⟩
  | .hbm, ⟨15, _⟩ => ⟨S100000x256, .f32⟩
  | .hbm, ⟨16, _⟩ => ⟨S100000x256, .f32⟩
  | .hbm, ⟨17, _⟩ => ⟨S_, .f32⟩
  | .hbm, ⟨18, _⟩ => ⟨S100000x256, .f32⟩
  | .hbm, ⟨19, _⟩ => ⟨S100000x256, .f32⟩
  | .hbm, ⟨20, _⟩ => ⟨S100000x512, .f32⟩
  | .hbm, ⟨21, _⟩ => ⟨S1x512, .f32⟩
  | .hbm, ⟨22, _⟩ => ⟨S100000x512, .f32⟩
  | .hbm, ⟨23, _⟩ => ⟨S100000x512, .f32⟩
  | .hbm, ⟨24, _⟩ => ⟨S_, .f32⟩
  | .hbm, ⟨25, _⟩ => ⟨S100000x512, .f32⟩
  | .hbm, ⟨26, _⟩ => ⟨S100000x512, .f32⟩
  | .hbm, ⟨27, _⟩ => ⟨S100000x64, .f32⟩
  | .hbm, ⟨28, _⟩ => ⟨S1x64, .f32⟩
  | .hbm, ⟨29, _⟩ => ⟨S100000x64, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S1600000x64, .f32⟩
  | .hbm, ⟨41, _⟩ => ⟨S1x64, .f32⟩
  | .hbm, ⟨42, _⟩ => ⟨S1600000x64, .f32⟩
  | .hbm, ⟨43, _⟩ => ⟨S1600000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S1600000x64, .f32⟩
  | .hbm, ⟨54, _⟩ => ⟨S1x64, .f32⟩
  | .hbm, ⟨55, _⟩ => ⟨S1600000x64, .f32⟩
  | .hbm, ⟨56, _⟩ => ⟨S1600000x64, .f32⟩
  | .hbm, ⟨57, _⟩ => ⟨S1600000x64, .f32⟩
  | .hbm, ⟨58, _⟩ => ⟨S_, .f32⟩
  | .hbm, ⟨59, _⟩ => ⟨S1600000, .f32⟩
  | .hbm, ⟨60, _⟩ => ⟨S1600000x1, .f32⟩
  | .hbm, ⟨61, _⟩ => ⟨S_, .f32⟩
  | .hbm, ⟨62, _⟩ => ⟨S1600000x1, .f32⟩
  | .hbm, ⟨63, _⟩ => ⟨S1600000x1, .f32⟩
  | .hbm, ⟨64, _⟩ => ⟨S1600000x1, .f32⟩
  | .hbm, ⟨65, _⟩ => ⟨S1600000x1, .f32⟩
  | .hbm, ⟨66, _⟩ => ⟨S_, .f32⟩
  | .hbm, ⟨67, _⟩ => ⟨S1600000x1, .f32⟩
  | .hbm, ⟨68, _⟩ => ⟨S1600000x1, .f32⟩
  | .hbm, ⟨69, _⟩ => ⟨S_, .f32⟩
  | .hbm, ⟨70, _⟩ => ⟨S1600000x1, .f32⟩
  | .hbm, ⟨71, _⟩ => ⟨S1600000x1, .f32⟩
  | .hbm, ⟨72, _⟩ => ⟨S1600000x64, .f32⟩
  | .hbm, ⟨73, _⟩ => ⟨S1600000x64, .f32⟩
  | .hbm, ⟨74, _⟩ => ⟨S_, .f32⟩
  | .hbm, ⟨75, _⟩ => ⟨S100000x64, .f32⟩
  | .hbm, ⟨76, _⟩ => ⟨S1600000x1, .i32⟩
  | .hbm, ⟨77, _⟩ => ⟨S100000x64, .f32⟩
  | .hbm, ⟨78, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_cst : Ref sig .tc := ⟨.hbm, 24, rfl⟩
abbrev main_call1_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_1 : Ref sig .tc := ⟨.hbm, 44, rfl⟩
abbrev main_v25 : Ref sig .tc := ⟨.hbm, 45, rfl⟩
abbrev main_v26 : Ref sig .tc := ⟨.hbm, 46, rfl⟩
abbrev main_c_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst : Ref sig .tc := ⟨.hbm, 58, rfl⟩
abbrev main_v37 : Ref sig .tc := ⟨.hbm, 59, rfl⟩
abbrev main_v38 : Ref sig .tc := ⟨.hbm, 60, rfl⟩
abbrev main_cst_3 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_4 : Ref sig .tc := ⟨.hbm, 66, rfl⟩
abbrev main_v43 : Ref sig .tc := ⟨.hbm, 67, rfl⟩
abbrev main_v44 : Ref sig .tc := ⟨.hbm, 68, rfl⟩
abbrev main_cst_5 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_6 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1x64_S1600000x64_0_1 : S1x64.BroadcastsInDim S1600000x64 (![0, 1] : Fin 2 → Fin S1600000x64.rank)
  reducesTo_S1600000x64_S1600000_d1 : S1600000x64.ReducesTo [1] S1600000
  h_S_ : 0 < S_.numel
  bcast_S_S1600000x1 : S_.BroadcastsInDim S1600000x1 (![] : Fin 0 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  concatenates_S100000x64_S100000x64_S100000x128_d1 : Shape.Concatenates [S100000x64, S100000x64] S100000x128 1
  dot_S100000x128_S128x256_S100000x256_1_0_0_1_n_n_wf : DotDims.WF S100000x128 S128x256 S100000x256 [1] [0] [0] [1] [] []
  dot_S100000x256_S256x512_S100000x512_1_0_0_1_n_n_wf : DotDims.WF S100000x256 S256x512 S100000x512 [1] [0] [0] [1] [] []
  dot_S100000x512_S512x64_S100000x64_1_0_0_1_n_n_wf : DotDims.WF S100000x512 S512x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1

variable [Facts₀]

def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x512_S100000x512_1_0_0_1_n_n : DotDims S100000x256 S256x512 S100000x512 where
  lhsContracting := [1]
  rhsContracting := [0]
  lhsNonContracting := [0]
  rhsNonContracting := [1]
  lhsBatch := []
  rhsBatch := []
  wf := dot_S100000x256_S256x512_S100000x512_1_0_0_1_n_n_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.GlueHost.lean ====
/-
  The host side of the idealized kernel program, read buffer by buffer: what each kernel region finds in the
  arrays it stages, and what the last stretch of host operations leaves in the result.

  Region 0 (the node network) finds the features and the three weight matrices as launched and each bias as
  the [1, k] reshape of the launched [k] vector, whose entry (0, j) is the vector's entry j.
-/
import proofs.«426639_j49065706389960_1_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- A buffer that no operation of a stretch writes is, after the stretch, what it was before. -/
local macro "not_written" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## Region 0's entry -/

theorem entry0_arg0 (c : Dev nD) : V1 m ρ c main_arg0 = m ((c : Thread nD τ).loc main_arg0) := by
  show StableHlo.after hostOps0 (W0 m ρ c) (Proc.devRef .tc main_arg0) = _
  not_written hostOps0

/-- Entry (0, j) of the [1, k] reshape of a [k] vector is the vector's entry j. -/
theorem reshape_row {k : Nat} (v : (⟨1, ![k]⟩ : Shape).Idx → EReal)
    (h : (⟨1, ![k]⟩ : Shape).ShapeCasts ⟨2, ![1, k]⟩) (j : Fin k) :
    shapeCast (⟨2, ![1, k]⟩ : Shape) v h (ix2 (0 : Fin 1) j) = v (ix1 j) := by
  refine (shapeCast_addUnit_apply ![k] v h _).trans (congrArg v (funext fun a => ?_))
  match a with
  | ⟨0, _⟩ => rfl

theorem entry0_arg3 (c : Dev nD) : V1 m ρ c main_arg3 = m ((c : Thread nD τ).loc main_arg3) := by
  show StableHlo.after hostOps0 (W0 m ρ c) (Proc.devRef .tc main_arg3) = _
  not_written hostOps0
theorem entry0_arg5 (c : Dev nD) : V1 m ρ c main_arg5 = m ((c : Thread nD τ).loc main_arg5) := by
  show StableHlo.after hostOps0 (W0 m ρ c) (Proc.devRef .tc main_arg5) = _
  not_written hostOps0
theorem entry0_arg7 (c : Dev nD) : V1 m ρ c main_arg7 = m ((c : Thread nD τ).loc main_arg7) := by
  show StableHlo.after hostOps0 (W0 m ρ c) (Proc.devRef .tc main_arg7) = _
  not_written hostOps0

theorem entry0_v0 (c : Dev nD) :
    V1 m ρ c main_v0 = shapeCast S1x256 (m ((c : Thread nD τ).loc main_arg4)) shapeCasts_S256_S1x256 := by
  show StableHlo.after hostOps0 (W0 m ρ c) (Proc.devRef .tc main_v0) = _
  after_results
  rfl
theorem entry0_v1 (c : Dev nD) :
    V1 m ρ c main_v1 = shapeCast S1x512 (m ((c : Thread nD τ).loc main_arg6)) shapeCasts_S512_S1x512 := by
  show StableHlo.after hostOps0 (W0 m ρ c) (Proc.devRef .tc main_v1) = _
  after_results
  rfl
theorem entry0_v2 (c : Dev nD) :
    V1 m ρ c main_v2 = shapeCast S1x64 (m ((c : Thread nD τ).loc main_arg8)) shapeCasts_S64_S1x64 := by
  show StableHlo.after hostOps0 (W0 m ρ c) (Proc.devRef .tc main_v2) = _
  after_results
  rfl

theorem entry0_bias1 (c : Dev nD) :
    (fun j : Fin 256 => V1 m ρ c main_v0 (ix2 (0 : Fin 1) j)) = fun j => m ((c : Thread nD τ).loc main_arg4) (ix1 j) := by
  funext j
  rw [entry0_v0]
  exact reshape_row _ _ j
theorem entry0_bias2 (c : Dev nD) :
    (fun j : Fin 512 => V1 m ρ c main_v1 (ix2 (0 : Fin 1) j)) = fun j => m ((c : Thread nD τ).loc main_arg6) (ix1 j) := by
  funext j
  rw [entry0_v1]
  exact reshape_row _ _ j
theorem entry0_bias3 (c : Dev nD) :
    (fun j : Fin 64 => V1 m ρ c main_v2 (ix2 (0 : Fin 1) j)) = fun j => m ((c : Thread nD τ).loc main_arg8) (ix1 j) := by
  funext j
  rw [entry0_v2]
  exact reshape_row _ _ j

/-! ## Between the regions: the two row takes and the edge biases -/

theorem W1_arg1 (c : Dev nD) : W1 m ρ c (Proc.devRef .tc main_arg1) = m ((c : Thread nD τ).loc main_arg1) := by
  not_written hostOps0
theorem W2_arg1 (c : Dev nD) : W2 m ρ c (Proc.devRef .tc main_arg1) = m ((c : Thread nD τ).loc main_arg1) :=
  (W2_of_ne m ρ c main_arg1 (by decide)).trans (W1_arg1 m ρ c)

/-- An index vector with its negative entries moved up by the table's row count, as both programs do before a
    row gather. -/
def wrapIdx (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- The same as a column of start indices. -/
def wcol (s : IVec S1600000 32) : IVec S1600000x1 32 :=
  broadcastInDim S1600000x1 ![0] bcast_S1600000_S1600000x1_0 (wrapIdx s)

/-- The kernel program's row take of a table `T` by an index vector `s`: the gathered rows where the moved index
    lies in the table's range, the fill word elsewhere. -/
def takeFill (T : FVec Ideal S100000x64 .f32) (s : IVec S1600000 32) : FVec Ideal S1600000x64 .f32 :=
  select
    (broadcastInDim S1600000x64 ![0] bcast_S1600000_S1600000x64_0
      (Host.reduce IntOp.andi
        (andi (cmpi .sge (wcol s) (broadcastInDim S1600000x1 ![] bcast_S_S1600000x1 (constantI S_ 32 0#32)))
          (cmpi .sle (wcol s) (broadcastInDim S1600000x1 ![0, 1] bcast_S1x1_S1600000x1_0_1
            (broadcastInDim S1x1 ![1] bcast_S1_S1x1_1 (constantI S1 32 99999#32)))))
        (constantI S_ 1 1#1) reducesTo_S1600000x1_S1600000_d1 h_S_))
    (Host.gather gather_S100000x64_S1600000x1_S1600000x64_1_0_n_n_0_1_164 T (wcol s))
    (broadcastInDim S1600000x64 ![] bcast_S_S1600000x64 (constant S_ .f32 0x7FC00000#32))

/-- Contents written through a typed reference and read back through it are the contents. -/
theorem ofBuf_toBuf {T : BufTy} (x : StableHlo.TRef sig T) (v : T.Contents (Elt Ideal)) : x.ofBuf (x.toBuf v) = v := by
  obtain ⟨r, h, _, _⟩ := x
  subst h
  rfl

/-- At a buffer whose type is literally the value's type, reading and writing through the typed reference change
    nothing. -/
theorem ofBuf_arg1 (h1 h2 h3) (v : main_arg1.ty.Contents (Elt Ideal)) :
    (StableHlo.TRef.of (T := ⟨S1600000, .i32⟩) main_arg1 h1 h2 h3).ofBuf v = v := rfl
theorem ofBuf_arg2 (h1 h2 h3) (v : main_arg2.ty.Contents (Elt Ideal)) :
    (StableHlo.TRef.of (T := ⟨S1600000, .i32⟩) main_arg2 h1 h2 h3).ofBuf v = v := rfl
theorem ofBuf_v3 (h1 h2 h3) (v : main_v3.ty.Contents (Elt Ideal)) :
    (StableHlo.TRef.of (T := ⟨S100000x64, .f32⟩) main_v3 h1 h2 h3).ofBuf v = v := rfl
theorem toBuf_v4 (h1 h2 h3) (v : (⟨S1600000x64, .f32⟩ : BufTy).Contents (Elt Ideal)) :
    (StableHlo.TRef.of (T := ⟨S1600000x64, .f32⟩) main_v4 h1 h2 h3).toBuf v = v := rfl
theorem toBuf_v5 (h1 h2 h3) (v : (⟨S1600000x64, .f32⟩ : BufTy).Contents (Elt Ideal)) :
    (StableHlo.TRef.of (T := ⟨S1600000x64, .f32⟩) main_v5 h1 h2 h3).toBuf v = v := rfl

set_option maxHeartbeats 4000000 in
/-- Region 1's first operand is the take of region 0's output table by the source indices. -/
theorem entry1_v4 (c : Dev nD) :
    V5 m ρ c main_v4 = takeFill (W2 m ρ c (Proc.devRef .tc main_v3)) (W2 m ρ c (Proc.devRef .tc main_arg1)) := by
  show StableHlo.after hostOps1_2 (StableHlo.after hostOps1_1 (StableHlo.after hostOps1 (W2 m ρ c))) (Proc.devRef .tc main_v4) = _
  refine Eq.trans (by not_written hostOps1_2) ?_
  refine Eq.trans (by not_written hostOps1_1) ?_
  generalize W2 m ρ c = X
  after_results_simp
  simp only [ofBuf_toBuf, ofBuf_arg1, ofBuf_v3, toBuf_v4]
  rfl

theorem W3_v3 (c : Dev nD) : W3 m ρ c (Proc.devRef .tc main_v3) = W2 m ρ c (Proc.devRef .tc main_v3) := by
  not_written hostOps1
theorem W3_arg2 (c : Dev nD) : W3 m ρ c (Proc.devRef .tc main_arg2) = W2 m ρ c (Proc.devRef .tc main_arg2) := by
  not_written hostOps1

set_option maxHeartbeats 4000000 in
/-- Region 1's second operand is the take of the same table by the destination indices. -/
theorem entry1_v5 (c : Dev nD) :
    V5 m ρ c main_v5 = takeFill (W2 m ρ c (Proc.devRef .tc main_v3)) (W2 m ρ c (Proc.devRef .tc main_arg2)) := by
  show StableHlo.after hostOps1_2 (StableHlo.after hostOps1_1 (W3 m ρ c)) (Proc.devRef .tc main_v5) = _
  refine Eq.trans (by not_written hostOps1_2) ?_
  rw [← W3_v3 m ρ c, ← W3_arg2 m ρ c]
  generalize W3 m ρ c = X
  after_results_simp
  simp only [ofBuf_toBuf, ofBuf_arg2, ofBuf_v3, toBuf_v5]
  rfl

theorem W5_arg9 (c : Dev nD) : V5 m ρ c main_arg9 = m ((c : Thread nD τ).loc main_arg9) := by
  show StableHlo.after hostOps1_2 (StableHlo.after hostOps1_1 (StableHlo.after hostOps1 (W2 m ρ c))) (Proc.devRef .tc main_arg9) = _
  refine Eq.trans (by not_written hostOps1_2) ?_
  refine Eq.trans (by not_written hostOps1_1) ?_
  refine Eq.trans (by not_written hostOps1) ?_
  refine (W2_of_ne m ρ c main_arg9 (by decide)).trans ?_
  not_written hostOps0
theorem W5_arg11 (c : Dev nD) : V5 m ρ c main_arg11 = m ((c : Thread nD τ).loc main_arg11) := by
  show StableHlo.after hostOps1_2 (StableHlo.after hostOps1_1 (StableHlo.after hostOps1 (W2 m ρ c))) (Proc.devRef .tc main_arg11) = _
  refine Eq.trans (by not_written hostOps1_2) ?_
  refine Eq.trans (by not_written hostOps1_1) ?_
  refine Eq.trans (by not_written hostOps1) ?_
  refine (W2_of_ne m ρ c main_arg11 (by decide)).trans ?_
  not_written hostOps0

theorem W4_arg10 (c : Dev nD) : W4 m ρ c (Proc.devRef .tc main_arg10) = m ((c : Thread nD τ).loc main_arg10) := by
  show StableHlo.after hostOps1_1 (StableHlo.after hostOps1 (W2 m ρ c)) (Proc.devRef .tc main_arg10) = _
  refine Eq.trans (by not_written hostOps1_1) ?_
  refine Eq.trans (by not_written hostOps1) ?_
  refine (W2_of_ne m ρ c main_arg10 (by decide)).trans ?_
  not_written hostOps0
theorem W4_arg12 (c : Dev nD) : W4 m ρ c (Proc.devRef .tc main_arg12) = m ((c : Thread nD τ).loc main_arg12) := by
  show StableHlo.after hostOps1_1 (StableHlo.after hostOps1 (W2 m ρ c)) (Proc.devRef .tc main_arg12) = _
  refine Eq.trans (by not_written hostOps1_1) ?_
  refine Eq.trans (by not_written hostOps1) ?_
  refine (W2_of_ne m ρ c main_arg12 (by decide)).trans ?_
  not_written hostOps0

theorem entry1_v6 (c : Dev nD) :
    V5 m ρ c main_v6 = shapeCast S1x64 (m ((c : Thread nD τ).loc main_arg10)) shapeCasts_S64_S1x64 := by
  show StableHlo.after hostOps1_2 (W4 m ρ c) (Proc.devRef .tc main_v6) = _
  rw [← W4_arg10 m ρ c]
  generalize W4 m ρ c = X
  after_results
  rfl
theorem entry1_v7 (c : Dev nD) :
    V5 m ρ c main_v7 = shapeCast S1x64 (m ((c : Thread nD τ).loc main_arg12)) shapeCasts_S64_S1x64 := by
  show StableHlo.after hostOps1_2 (W4 m ρ c) (Proc.devRef .tc main_v7) = _
  rw [← W4_arg12 m ρ c]
  generalize W4 m ρ c = X
  after_results
  rfl

theorem entry1_bias_s (c : Dev nD) :
    (fun j : Fin 64 => V5 m ρ c main_v6 (ix2 (0 : Fin 1) j)) = fun j => m ((c : Thread nD τ).loc main_arg10) (ix1 j) := by
  funext j
  rw [entry1_v6]
  exact reshape_row _ _ j
theorem entry1_bias_d (c : Dev nD) :
    (fun j : Fin 64 => V5 m ρ c main_v7 (ix2 (0 : Fin 1) j)) = fun j => m ((c : Thread nD τ).loc main_arg12) (ix1 j) := by
  funext j
  rw [entry1_v7]
  exact reshape_row _ _ j

theorem W2_arg2 (c : Dev nD) : W2 m ρ c (Proc.devRef .tc main_arg2) = m ((c : Thread nD τ).loc main_arg2) := by
  refine (W2_of_ne m ρ c main_arg2 (by decide)).trans ?_
  not_written hostOps0

/-! ## After region 1: the scatter-sum and the concatenation -/

/-- What the last stretch makes of the node table `H`, the destination indices and the message table `M`:
    `H` beside the sum, per destination row, of the messages. Both programs end with these operations. -/
def finish (H : FVec Ideal S100000x64 .f32) (dst : IVec S1600000 32) (M : FVec Ideal S1600000x64 .f32) : FVec Ideal S100000x128 .f32 :=
  concatenate S100000x128 1
    [⟨S100000x64, H⟩,
     ⟨S100000x64, Host.scatterAdd scatter_S100000x64_S1600000x1_S1600000x64_1_0_0_1
        (broadcastInDim S100000x64 ![] bcast_S_S100000x64 (constant S_ .f32 0x00000000#32))
        (broadcastInDim S1600000x1 ![0] bcast_S1600000_S1600000x1_0 dst) M⟩]
    concatenates_S100000x64_S100000x64_S100000x128_d1

theorem W6_v3 (c : Dev nD) : W6 m ρ c (Proc.devRef .tc main_v3) = W2 m ρ c (Proc.devRef .tc main_v3) := by
  refine (W6_of_ne m ρ c main_v3 (by decide)).trans ?_
  show StableHlo.after hostOps1_2 (StableHlo.after hostOps1_1 (StableHlo.after hostOps1 (W2 m ρ c))) (Proc.devRef .tc main_v3) = _
  refine Eq.trans (by not_written hostOps1_2) ?_
  refine Eq.trans (by not_written hostOps1_1) ?_
  not_written hostOps1
theorem W6_arg2 (c : Dev nD) : W6 m ρ c (Proc.devRef .tc main_arg2) = m ((c : Thread nD τ).loc main_arg2) := by
  refine (W6_of_ne m ρ c main_arg2 (by decide)).trans ?_
  show StableHlo.after hostOps1_2 (StableHlo.after hostOps1_1 (StableHlo.after hostOps1 (W2 m ρ c))) (Proc.devRef .tc main_arg2) = _
  refine Eq.trans (by not_written hostOps1_2) ?_
  refine Eq.trans (by not_written hostOps1_1) ?_
  refine Eq.trans (by not_written hostOps1) ?_
  exact W2_arg2 m ρ c

/-- The result buffer after the run, from region 0's output table, the launched destination indices and region 1's
    output table. -/
theorem result_eq (c : Dev nD) :
    W7 m ρ c (Proc.devRef .tc main_v12)
      = finish (W6 m ρ c (Proc.devRef .tc main_v3)) (W6 m ρ c (Proc.devRef .tc main_arg2)) (W6 m ρ c (Proc.devRef .tc main_v8)) := by
  show StableHlo.after hostOps2 (W6 m ρ c) (Proc.devRef .tc main_v12) = _
  generalize W6 m ρ c = X
  after_results
  rfl

end Cert.KernelIdeal.Glue

end
-- ==== Proof.Spec.lean ====
/-
  What both programs compute, written once over the extended reals, index by index.

  A dense layer at output coordinate j is the sum over the input coordinates i of x i · W (i, j), plus the
  bias b j. The node network sends a row x of 128 features through three such layers (widths 256, 512, 64)
  with max(·, 0) after the first two. An edge e carries two rows of 64 numbers, s (the source node's output
  row) and d (the destination's); each goes through its own dense layer (sf, df), the gate is the logistic of
  one eighth of the inner product of sf and df, and the message is sf scaled by the gate.
-/
import Idealize.ShloMosaic.PureOps.Ideal
import Idealize.ShloMosaic.Lib.ValueIdx

noncomputable section

namespace Cert.Spec

open Idealize.ShloMosaic Idealize.ShloMosaic.ValueIdx

/-- A dense layer read at output coordinate `j`. -/
def dense {n k : Nat} (x : Fin n → EReal) (W : (⟨2, ![n, k]⟩ : Shape).Idx → EReal) (b : Fin k → EReal) (j : Fin k) : EReal :=
  (∑ i : Fin n, x i * W (ix2 i j)) + b j

/-- max(v, 0), the zero kept as the f32 word both programs carry. -/
def relu (v : EReal) : EReal := max v (Ideal.ofBits .f32 0x00000000#32)

/-- The node network on one row of features. -/
def mlpRow (x : Fin 128 → EReal)
    (W1 : (⟨2, ![128, 256]⟩ : Shape).Idx → EReal) (b1 : Fin 256 → EReal)
    (W2 : (⟨2, ![256, 512]⟩ : Shape).Idx → EReal) (b2 : Fin 512 → EReal)
    (W3 : (⟨2, ![512, 64]⟩ : Shape).Idx → EReal) (b3 : Fin 64 → EReal) : Fin 64 → EReal :=
  dense (fun j => relu (dense (fun j' => relu (dense x W1 b1 j')) W2 b2 j)) W3 b3

/-- The node network on every row of a table of features: entry (p, q) depends on row p only. -/
def mlp (X : (⟨2, ![100000, 128]⟩ : Shape).Idx → EReal)
    (W1 : (⟨2, ![128, 256]⟩ : Shape).Idx → EReal) (b1 : Fin 256 → EReal)
    (W2 : (⟨2, ![256, 512]⟩ : Shape).Idx → EReal) (b2 : Fin 512 → EReal)
    (W3 : (⟨2, ![512, 64]⟩ : Shape).Idx → EReal) (b3 : Fin 64 → EReal) :
    (⟨2, ![100000, 64]⟩ : Shape).Idx → EReal :=
  fun i => mlpRow (fun a => X (ix2 (i 0) a)) W1 b1 W2 b2 W3 b3 (i 1)

theorem mlp_ix2 (X : (⟨2, ![100000, 128]⟩ : Shape).Idx → EReal)
    (W1 : (⟨2, ![128, 256]⟩ : Shape).Idx → EReal) (b1 : Fin 256 → EReal)
    (W2 : (⟨2, ![256, 512]⟩ : Shape).Idx → EReal) (b2 : Fin 512 → EReal)
    (W3 : (⟨2, ![512, 64]⟩ : Shape).Idx → EReal) (b3 : Fin 64 → EReal) (p : Fin 100000) (q : Fin 64) :
    mlp X W1 b1 W2 b2 W3 b3 (ix2 p q) = mlpRow (fun a => X (ix2 p a)) W1 b1 W2 b2 W3 b3 q := rfl

/-- The gated message of one edge from its two rows, at coordinate `q`. -/
def edgeRow (s d : Fin 64 → EReal)
    (Wsp : (⟨2, ![64, 64]⟩ : Shape).Idx → EReal) (bsp : Fin 64 → EReal)
    (Wdp : (⟨2, ![64, 64]⟩ : Shape).Idx → EReal) (bdp : Fin 64 → EReal) (q : Fin 64) : EReal :=
  dense s Wsp bsp q
    * Ideal.logistic ((∑ k : Fin 64, dense s Wsp bsp k * dense d Wdp bdp k) * Ideal.ofBits .f32 0x3E000000#32)

/-- The gated messages of all edges: entry (e, q) depends on row e of the two gathered tables only. -/
def edge (S D : (⟨2, ![1600000, 64]⟩ : Shape).Idx → EReal)
    (Wsp : (⟨2, ![64, 64]⟩ : Shape).Idx → EReal) (bsp : Fin 64 → EReal)
    (Wdp : (⟨2, ![64, 64]⟩ : Shape).Idx → EReal) (bdp : Fin 64 → EReal) :
    (⟨2, ![1600000, 64]⟩ : Shape).Idx → EReal :=
  fun i => edgeRow (fun a => S (ix2 (i 0) a)) (fun a => D (ix2 (i 0) a)) Wsp bsp Wdp bdp (i 1)

theorem edge_ix2 (S D : (⟨2, ![1600000, 64]⟩ : Shape).Idx → EReal)
    (Wsp : (⟨2, ![64, 64]⟩ : Shape).Idx → EReal) (bsp : Fin 64 → EReal)
    (Wdp : (⟨2, ![64, 64]⟩ : Shape).Idx → EReal) (bdp : Fin 64 → EReal) (e : Fin 1600000) (q : Fin 64) :
    edge S D Wsp bsp Wdp bdp (ix2 e q)
      = edgeRow (fun a => S (ix2 e a)) (fun a => D (ix2 e a)) Wsp bsp Wdp bdp q := rfl

end Cert.Spec

end
-- ==== Proof.Region0Pay.lean ====
/-
  The node network's payload read at one index.

  The body of the node network stores ONE value: with x the block of 2000 feature rows it has loaded, W1, W2,
  W3 the three weight matrices and b1, b2, b3 the bias rows (each a [1, n] array),
      ((max(max(x · W1 + b1, 0) · W2 + b2, 0)) · W3) + b3,
  every product a matrix product into a zero accumulator, every bias row repeated down the 2000 rows, and the
  narrowing of a product's operands to 16 bits the identity on the extended reals. Read at row p and column q
  this is the specification's network on row p of x, at coordinate q.

  A matrix product read at (p, q) is the sum over the ONE contracted coordinate k of lhs (p, k) · rhs (k, q):
  the contraction's index set is carried to Fin n by the coordinate bijection, and the operand indices the
  dimension numbers build are (p, k) and (k, q), one axis at a time.
-/
import proofs.«426639_j49065706389960_1_alg».proof.Proof.Spec
import proofs.«426639_j49065706389960_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Region0

open Cert.KernelIdeal Cert.KernelIdeal.Gen Idealize.ShloMosaic Idealize.ShloMosaic.TcCoe Idealize.SL.Sem
open Idealize.ShloMosaic.ValueIdx

/-! ## The first product: [2000, 128] by [128, 256] -/

theorem lhs_first_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_first_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_first_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_first_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The first product into the zero accumulator, at row p and column q: the sum over the 128 features. -/
theorem first_apply (a : FVec Ideal S2000x128 .bf16) (b : FVec Ideal S128x256 .bf16) (p : Fin 2000) (q : Fin 256) :
    matmul dot_S2000x128_S128x256_S2000x256_1_0_0_1_n_n none a b (constant (F := Ideal) S2000x256 .f32 0x00000000#32) (ix2 p q)
      = ∑ k : Fin 128, a (ix2 p k) * b (ix2 k q) := by
  simp only [matmul]
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k := funext fun a => Fin.ext (by
    match a with
    | ⟨0, _⟩ => exact lhs_first_0 _ _
    | ⟨1, _⟩ => exact (lhs_first_1 _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q := funext fun a => Fin.ext (by
    match a with
    | ⟨0, _⟩ => exact (rhs_first_0 _ _).trans hk
    | ⟨1, _⟩ => exact rhs_first_1 _ _)
  rw [el, er]

/-! ## The second product: [2000, 256] by [256, 512] -/

theorem lhs_second_0 (i : S2000x512.Idx) (q : dot_S2000x256_S256x512_S2000x512_1_0_0_1_n_n.contr.Idx) :
    (dot_S2000x256_S256x512_S2000x512_1_0_0_1_n_n.lhsIdx i q 0).val = (i 0).val := by
  unfold DotDims.lhsIdx
  rw [dif_neg (show ¬(0 : Fin S2000x256.rank) ∈ dot_S2000x256_S256x512_S2000x512_1_0_0_1_n_n.lhsBatch by decide), dif_pos (show (0 : Fin S2000x256.rank) ∈ dot_S2000x256_S256x512_S2000x512_1_0_0_1_n_n.lhsNonContracting by decide)]
  rfl
theorem lhs_second_1 (i : S2000x512.Idx) (q : dot_S2000x256_S256x512_S2000x512_1_0_0_1_n_n.contr.Idx) :
    (dot_S2000x256_S256x512_S2000x512_1_0_0_1_n_n.lhsIdx i q 1).val = (q ⟨0, by decide⟩).val :=
  dot_S2000x256_S256x512_S2000x512_1_0_0_1_n_n.lhsIdx_val_of_single rfl i q
theorem rhs_second_0 (i : S2000x512.Idx) (q : dot_S2000x256_S256x512_S2000x512_1_0_0_1_n_n.contr.Idx) :
    (dot_S2000x256_S256x512_S2000x512_1_0_0_1_n_n.rhsIdx i q 0).val = (q ⟨0, by decide⟩).val :=
  dot_S2000x256_S256x512_S2000x512_1_0_0_1_n_n.rhsIdx_val_of_single rfl i q
theorem rhs_second_1 (i : S2000x512.Idx) (q : dot_S2000x256_S256x512_S2000x512_1_0_0_1_n_n.contr.Idx) :
    (dot_S2000x256_S256x512_S2000x512_1_0_0_1_n_n.rhsIdx i q 1).val = (i 1).val := by
  unfold DotDims.rhsIdx
  rw [dif_neg (show ¬(1 : Fin S256x512.rank) ∈ dot_S2000x256_S256x512_S2000x512_1_0_0_1_n_n.rhsBatch by decide), dif_pos (show (1 : Fin S256x512.rank) ∈ dot_S2000x256_S256x512_S2000x512_1_0_0_1_n_n.rhsNonContracting by decide)]
  rfl

/-- The second product into the zero accumulator, at row p and column q: the sum over the 256 hidden units. -/
theorem second_apply (a : FVec Ideal S2000x256 .bf16) (b : FVec Ideal S256x512 .bf16) (p : Fin 2000) (q : Fin 512) :
    matmul dot_S2000x256_S256x512_S2000x512_1_0_0_1_n_n none a b (constant (F := Ideal) S2000x512 .f32 0x00000000#32) (ix2 p q)
      = ∑ k : Fin 256, a (ix2 p k) * b (ix2 k q) := by
  simp only [matmul]
  rw [Ideal.matmul_constant_zero_apply, ← Equiv.sum_comp (ValueIdx.contrEquiv1 dot_S2000x256_S256x512_S2000x512_1_0_0_1_n_n 256 rfl rfl).symm]
  refine Finset.sum_congr rfl fun k _ => ?_
  have hk := ValueIdx.contrEquiv1_symm_val dot_S2000x256_S256x512_S2000x512_1_0_0_1_n_n 256 rfl rfl k
  have el : dot_S2000x256_S256x512_S2000x512_1_0_0_1_n_n.lhsIdx (ix2 p q) ((ValueIdx.contrEquiv1 dot_S2000x256_S256x512_S2000x512_1_0_0_1_n_n 256 rfl rfl).symm k) = ix2 p k := funext fun a => Fin.ext (by
    match a with
    | ⟨0, _⟩ => exact lhs_second_0 _ _
    | ⟨1, _⟩ => exact (lhs_second_1 _ _).trans hk)
  have er : dot_S2000x256_S256x512_S2000x512_1_0_0_1_n_n.rhsIdx (ix2 p q) ((ValueIdx.contrEquiv1 dot_S2000x256_S256x512_S2000x512_1_0_0_1_n_n 256 rfl rfl).symm k) = ix2 k q := funext fun a => Fin.ext (by
    match a with
    | ⟨0, _⟩ => exact (rhs_second_0 _ _).trans hk
    | ⟨1, _⟩ => exact rhs_second_1 _ _)
  rw [el, er]

/-! ## The third product: [2000, 512] by [512, 64] -/

theorem lhs_third_0 (i : S2000x64.Idx) (q : dot_S2000x512_S512x64_S2000x64_1_0_0_1_n_n.contr.Idx) :
    (dot_S2000x512_S512x64_S2000x64_1_0_0_1_n_n.lhsIdx i q 0).val = (i 0).val := by
  unfold DotDims.lhsIdx
  rw [dif_neg (show ¬(0 : Fin S2000x512.rank) ∈ dot_S2000x512_S512x64_S2000x64_1_0_0_1_n_n.lhsBatch by decide), dif_pos (show (0 : Fin S2000x512.rank) ∈ dot_S2000x512_S512x64_S2000x64_1_0_0_1_n_n.lhsNonContracting by decide)]
  rfl
theorem lhs_third_1 (i : S2000x64.Idx) (q : dot_S2000x512_S512x64_S2000x64_1_0_0_1_n_n.contr.Idx) :
    (dot_S2000x512_S512x64_S2000x64_1_0_0_1_n_n.lhsIdx i q 1).val = (q ⟨0, by decide⟩).val :=
  dot_S2000x512_S512x64_S2000x64_1_0_0_1_n_n.lhsIdx_val_of_single rfl i q
theorem rhs_third_0 (i : S2000x64.Idx) (q : dot_S2000x512_S512x64_S2000x64_1_0_0_1_n_n.contr.Idx) :
    (dot_S2000x512_S512x64_S2000x64_1_0_0_1_n_n.rhsIdx i q 0).val = (q ⟨0, by decide⟩).val :=
  dot_S2000x512_S512x64_S2000x64_1_0_0_1_n_n.rhsIdx_val_of_single rfl i q
theorem rhs_third_1 (i : S2000x64.Idx) (q : dot_S2000x512_S512x64_S2000x64_1_0_0_1_n_n.contr.Idx) :
    (dot_S2000x512_S512x64_S2000x64_1_0_0_1_n_n.rhsIdx i q 1).val = (i 1).val := by
  unfold DotDims.rhsIdx
  rw [dif_neg (show ¬(1 : Fin S512x64.rank) ∈ dot_S2000x512_S512x64_S2000x64_1_0_0_1_n_n.rhsBatch by decide), dif_pos (show (1 : Fin S512x64.rank) ∈ dot_S2000x512_S512x64_S2000x64_1_0_0_1_n_n.rhsNonContracting by decide)]
  rfl

/-- The third product into the zero accumulator, at row p and column q: the sum over the 512 hidden units. -/
theorem third_apply (a : FVec Ideal S2000x512 .bf16) (b : FVec Ideal S512x64 .bf16) (p : Fin 2000) (q : Fin 64) :
    matmul dot_S2000x512_S512x64_S2000x64_1_0_0_1_n_n none a b (constant (F := Ideal) S2000x64 .f32 0x00000000#32) (ix2 p q)
      = ∑ k : Fin 512, a (ix2 p k) * b (ix2 k q) := by
  simp only [matmul]
  rw [Ideal.matmul_constant_zero_apply, ← Equiv.sum_comp (ValueIdx.contrEquiv1 dot_S2000x512_S512x64_S2000x64_1_0_0_1_n_n 512 rfl rfl).symm]
  refine Finset.sum_congr rfl fun k _ => ?_
  have hk := ValueIdx.contrEquiv1_symm_val dot_S2000x512_S512x64_S2000x64_1_0_0_1_n_n 512 rfl rfl k
  have el : dot_S2000x512_S512x64_S2000x64_1_0_0_1_n_n.lhsIdx (ix2 p q) ((ValueIdx.contrEquiv1 dot_S2000x512_S512x64_S2000x64_1_0_0_1_n_n 512 rfl rfl).symm k) = ix2 p k := funext fun a => Fin.ext (by
    match a with
    | ⟨0, _⟩ => exact lhs_third_0 _ _
    | ⟨1, _⟩ => exact (lhs_third_1 _ _).trans hk)
  have er : dot_S2000x512_S512x64_S2000x64_1_0_0_1_n_n.rhsIdx (ix2 p q) ((ValueIdx.contrEquiv1 dot_S2000x512_S512x64_S2000x64_1_0_0_1_n_n 512 rfl rfl).symm k) = ix2 k q := funext fun a => Fin.ext (by
    match a with
    | ⟨0, _⟩ => exact (rhs_third_0 _ _).trans hk
    | ⟨1, _⟩ => exact rhs_third_1 _ _)
  rw [el, er]

/-! ## A bias row repeated down the rows -/

/-- The first bias row, cast to its own shape and repeated down 2000 rows, reads at (p, q) its entry q. -/
theorem bias_first_apply (b : FVec Ideal S1x256 .f32) (p : Fin 2000) (q : Fin 256) :
    broadcastTo S2000x256 (shapeCast S1x256 b shapeCasts_S1x256_S1x256) broadcasts_S1x256_S2000x256 (ix2 p q)
      = b (ix2 (0 : Fin 1) q) := by
  rw [shapeCast_self]
  exact broadcastTo_apply b _ (ix2 p q) (ix2 (0 : Fin 1) q) (fun a => by
    match a with
    | ⟨0, _⟩ => rfl
    | ⟨1, _⟩ => rfl)

/-- The second bias row likewise, down 2000 rows of 512. -/
theorem bias_second_apply (b : FVec Ideal S1x512 .f32) (p : Fin 2000) (q : Fin 512) :
    broadcastTo S2000x512 (shapeCast S1x512 b shapeCasts_S1x512_S1x512) broadcasts_S1x512_S2000x512 (ix2 p q)
      = b (ix2 (0 : Fin 1) q) := by
  rw [shapeCast_self]
  exact broadcastTo_apply b _ (ix2 p q) (ix2 (0 : Fin 1) q) (fun a => by
    match a with
    | ⟨0, _⟩ => rfl
    | ⟨1, _⟩ => rfl)

/-- The third bias row likewise, down 2000 rows of 64. -/
theorem bias_third_apply (b : FVec Ideal S1x64 .f32) (p : Fin 2000) (q : Fin 64) :
    broadcastTo S2000x64 (shapeCast S1x64 b shapeCasts_S1x64_S1x64) broadcasts_S1x64_S2000x64 (ix2 p q)
      = b (ix2 (0 : Fin 1) q) := by
  rw [shapeCast_self]
  exact broadcastTo_apply b _ (ix2 p q) (ix2 (0 : Fin 1) q) (fun a => by
    match a with
    | ⟨0, _⟩ => rfl
    | ⟨1, _⟩ => rfl)

/-! ## The payload -/

/-- The stored value at row p and column q of the block is the specification's network on row p of the loaded
    features, at coordinate q. -/
theorem pay_apply (x0 : Vec Ideal S2000x128 .f32) (x1 : Vec Ideal S128x256 .f32) (x2 : Vec Ideal S1x256 .f32)
    (x3 : Vec Ideal S256x512 .f32) (x4 : Vec Ideal S1x512 .f32) (x5 : Vec Ideal S512x64 .f32) (x6 : Vec Ideal S1x64 .f32)
    (p : Fin 2000) (q : Fin 64) :
    k0_pay1 (F := Ideal) x0 x1 x2 x3 x4 x5 x6 (ix2 p q)
      = Cert.Spec.mlpRow (fun a => x0 (ix2 p a)) x1 (fun j => x2 (ix2 (0 : Fin 1) j)) x3
          (fun j => x4 (ix2 (0 : Fin 1) j)) x5 (fun j => x6 (ix2 (0 : Fin 1) j)) q := by
  unfold k0_pay1
  rw [addf_apply, third_apply, bias_third_apply]
  simp only [truncf_apply, maximumf_apply, addf_apply, broadcast_apply, second_apply, bias_second_apply, first_apply, bias_first_apply]
  rfl

/-- The same against the whole table of features: if row p of the loaded block is row `row p` of the table X, the
    stored value at (p, q) is the specification's whole-table network at (row p, q). -/
theorem pay_block (X : (⟨2, ![100000, 128]⟩ : Shape).Idx → EReal)
    (x0 : Vec Ideal S2000x128 .f32) (x1 : Vec Ideal S128x256 .f32) (x2 : Vec Ideal S1x256 .f32)
    (x3 : Vec Ideal S256x512 .f32) (x4 : Vec Ideal S1x512 .f32) (x5 : Vec Ideal S512x64 .f32) (x6 : Vec Ideal S1x64 .f32)
    (row : Fin 2000 → Fin 100000) (hx : ∀ (p : Fin 2000) (a : Fin 128), x0 (ix2 p a) = X (ix2 (row p) a))
    (p : Fin 2000) (q : Fin 64) :
    k0_pay1 (F := Ideal) x0 x1 x2 x3 x4 x5 x6 (ix2 p q)
      = Cert.Spec.mlp X x1 (fun j => x2 (ix2 (0 : Fin 1) j)) x3 (fun j => x4 (ix2 (0 : Fin 1) j)) x5
          (fun j => x6 (ix2 (0 : Fin 1) j)) (ix2 (row p) q) := by
  rw [pay_apply, Cert.Spec.mlp_ix2,
    show (fun a => x0 (ix2 p a)) = fun a => X (ix2 (row p) a) from funext fun a => hx p a]

end Cert.KernelIdeal.Region0

end
-- ==== Proof.Region0Value.lean ====
/-
  The node network's region, from blocks to the whole array.

  The grid has 50 points; point t works on rows 2000 t … 2000 t + 1999. Its feature window and its output
  window have block index (t, 0); the six windows of weights and bias rows have block index (0, 0), so their
  block is the whole array. Hence what point t writes back is rows 2000 t … 2000 t + 1999 of the
  specification's network on the whole table of features, the 50 blocks cover the 100000 rows (row r lies in
  the block of point r / 2000), and the output array ends holding that function.
-/
import proofs.«426639_j49065706389960_1_alg».proof.Proof.Region0Pay
import proofs.«426639_j49065706389960_1_alg».proof.Proof.Gen.KernelIdeal.Frame
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

theorem zero_offsets : (![0, 0] : Fin 2 → Nat) = fun _ => 0 := funext fun a => by fin_cases a <;> rfl

/-- The network on the whole table of features, from the arrays as the region finds them. -/
abbrev net (c : Dev nD) : (⟨2, ![100000, 64]⟩ : Shape).Idx → EReal :=
  Cert.Spec.mlp (V c main_arg0) (V c main_arg3) (fun j => V c main_v0 (ix2 (0 : Fin 1) j)) (V c main_arg5)
    (fun j => V c main_v1 (ix2 (0 : Fin 1) j)) (V c main_arg7) (fun j => V c main_v2 (ix2 (0 : Fin 1) j))

/-! ## The index maps over the grid -/

/-- Decided over the 50 points: the features' and the output's block index is (t, 0), every other window's (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The row of the table that row p of point t's block is: 2000 t + p. -/
def rowOf (t : Fin cfg0.N) (p : Fin 2000) : Fin 100000 :=
  ⟨t.val * 2000 + p.val, by
    have ht := t.isLt
    have hN : cfg0.N = 50 := N_0
    have hp := p.isLt
    omega⟩

/-! ## Each window's block, read off its array -/

/-- Row p of the feature block at point t is row 2000 t + p of the table. -/
theorem blk_rows (c : Dev nD) (t : Fin cfg0.N) (p : Fin 2000) (a : Fin 128) :
    (Gen.iblk0 (F := Ideal) V c 0 t : Vec Ideal S2000x128 .f32) (ix2 p a) = V c main_arg0 (ix2 (rowOf t p) a) := by
  obtain ⟨e00, e01, -⟩ := index_facts t
  show V c main_arg0 (((cfg0.win 0).blk t).view.emb (ix2 p a)) = V c main_arg0 (ix2 (rowOf t p) a)
  refine congrArg (V c main_arg0) (funext fun b => Fin.ext ?_)
  match b with
  | ⟨0, _⟩ => show win0_0.index t (0 : Fin 2) * 2000 + 1 * p.val = t.val * 2000 + p.val; omega
  | ⟨1, _⟩ => show win0_0.index t (1 : Fin 2) * 128 + 1 * a.val = a.val; omega

/-- The first weight matrix's block is the matrix. -/
theorem blk_W1 (c : Dev nD) (t : Fin cfg0.N) : Gen.iblk0 (F := Ideal) V c 1 t = V c main_arg3 := by
  obtain ⟨-, -, e0, e1, -⟩ := index_facts t
  refine funext fun (y : S128x256.Idx) => ?_
  show V c main_arg3 (((cfg0.win 1).blk t).view.emb y) = V c main_arg3 y
  refine congrArg (V c main_arg3) (funext fun b => Fin.ext ?_)
  match b with
  | ⟨0, _⟩ => show win0_1.index t (0 : Fin 2) * 128 + 1 * (y 0).val = (y 0).val; omega
  | ⟨1, _⟩ => show win0_1.index t (1 : Fin 2) * 256 + 1 * (y 1).val = (y 1).val; omega

/-- The first bias row's block is the row. -/
theorem blk_b1 (c : Dev nD) (t : Fin cfg0.N) : Gen.iblk0 (F := Ideal) V c 2 t = V c main_v0 := by
  obtain ⟨-, -, -, -, e0, e1, -⟩ := index_facts t
  refine funext fun (y : S1x256.Idx) => ?_
  show V c main_v0 (((cfg0.win 2).blk t).view.emb y) = V c main_v0 y
  refine congrArg (V c main_v0) (funext fun b => Fin.ext ?_)
  match b with
  | ⟨0, _⟩ => show win0_2.index t (0 : Fin 2) * 1 + 1 * (y 0).val = (y 0).val; omega
  | ⟨1, _⟩ => show win0_2.index t (1 : Fin 2) * 256 + 1 * (y 1).val = (y 1).val; omega

/-- The second weight matrix's block is the matrix. -/
theorem blk_W2 (c : Dev nD) (t : Fin cfg0.N) : Gen.iblk0 (F := Ideal) V c 3 t = V c main_arg5 := by
  obtain ⟨-, -, -, -, -, -, e0, e1, -⟩ := index_facts t
  refine funext fun (y : S256x512.Idx) => ?_
  show V c main_arg5 (((cfg0.win 3).blk t).view.emb y) = V c main_arg5 y
  refine congrArg (V c main_arg5) (funext fun b => Fin.ext ?_)
  match b with
  | ⟨0, _⟩ => show win0_3.index t (0 : Fin 2) * 256 + 1 * (y 0).val = (y 0).val; omega
  | ⟨1, _⟩ => show win0_3.index t (1 : Fin 2) * 512 + 1 * (y 1).val = (y 1).val; omega

/-- The second bias row's block is the row. -/
theorem blk_b2 (c : Dev nD) (t : Fin cfg0.N) : Gen.iblk0 (F := Ideal) V c 4 t = V c main_v1 := by
  obtain ⟨-, -, -, -, -, -, -, -, e0, e1, -⟩ := index_facts t
  refine funext fun (y : S1x512.Idx) => ?_
  show V c main_v1 (((cfg0.win 4).blk t).view.emb y) = V c main_v1 y
  refine congrArg (V c main_v1) (funext fun b => Fin.ext ?_)
  match b with
  | ⟨0, _⟩ => show win0_4.index t (0 : Fin 2) * 1 + 1 * (y 0).val = (y 0).val; omega
  | ⟨1, _⟩ => show win0_4.index t (1 : Fin 2) * 512 + 1 * (y 1).val = (y 1).val; omega

/-- The third weight matrix's block is the matrix. -/
theorem blk_W3 (c : Dev nD) (t : Fin cfg0.N) : Gen.iblk0 (F := Ideal) V c 5 t = V c main_arg7 := by
  obtain ⟨-, -, -, -, -, -, -, -, -, -, e0, e1, -⟩ := index_facts t
  refine funext fun (y : S512x64.Idx) => ?_
  show V c main_arg7 (((cfg0.win 5).blk t).view.emb y) = V c main_arg7 y
  refine congrArg (V c main_arg7) (funext fun b => Fin.ext ?_)
  match b with
  | ⟨0, _⟩ => show win0_5.index t (0 : Fin 2) * 512 + 1 * (y 0).val = (y 0).val; omega
  | ⟨1, _⟩ => show win0_5.index t (1 : Fin 2) * 64 + 1 * (y 1).val = (y 1).val; omega

/-- The third bias row's block is the row. -/
theorem blk_b3 (c : Dev nD) (t : Fin cfg0.N) : Gen.iblk0 (F := Ideal) V c 6 t = V c main_v2 := by
  obtain ⟨-, -, -, -, -, -, -, -, -, -, -, -, e0, e1, -⟩ := index_facts t
  refine funext fun (y : S1x64.Idx) => ?_
  show V c main_v2 (((cfg0.win 6).blk t).view.emb y) = V c main_v2 y
  refine congrArg (V c main_v2) (funext fun b => Fin.ext ?_)
  match b with
  | ⟨0, _⟩ => show win0_6.index t (0 : Fin 2) * 1 + 1 * (y 0).val = (y 0).val; omega
  | ⟨1, _⟩ => show win0_6.index t (1 : Fin 2) * 64 + 1 * (y 1).val = (y 1).val; omega

/-- Entry (p, q) of the output block at point t is entry (2000 t + p, q) of the output array. -/
theorem out_emb (t : Fin cfg0.N) (p : Fin 2000) (q : Fin 64) :
    ((cfg0.win 7).blk t).view.emb (ix2 p q) = (ix2 (rowOf t p) q : S100000x64.Idx) := by
  obtain ⟨-, -, -, -, -, -, -, -, -, -, -, -, -, -, e0, e1⟩ := index_facts t
  refine funext fun b => Fin.ext ?_
  match b with
  | ⟨0, _⟩ => show win0_7.index t (0 : Fin 2) * 2000 + 1 * p.val = t.val * 2000 + p.val; omega
  | ⟨1, _⟩ => show win0_7.index t (1 : Fin 2) * 64 + 1 * q.val = q.val; omega

/-! ## What a point writes back -/

/-- What point t writes back is block t of the network on the whole table. -/
theorem flushed_eq (c : Dev nD) (t : Fin cfg0.N) :
    (Gen.dat0 (F := Ideal) V c).flushed 7 t = ((cfg0.win 7).blk t).view.read (Elt Ideal) (net V c) := by
  show (cfg0.win 7).cut (grid0.coords t) ((Gen.dat0 V c).after 7 t) = _
  rw [Gen.after0_7]
  unfold Gen.out0_7
  rw [View.canon_unit_zero zero_offsets]
  simp only [View.ld_unit_zero (S := S2000x128) zero_offsets, View.ld_unit_zero (S := S128x256) zero_offsets,
    View.ld_unit_zero (S := S1x256) zero_offsets, View.ld_unit_zero (S := S256x512) zero_offsets,
    View.ld_unit_zero (S := S1x512) zero_offsets, View.ld_unit_zero (S := S512x64) zero_offsets,
    View.ld_unit_zero (S := S1x64) zero_offsets]
  rw [blk_W1 V c t, blk_b1 V c t, blk_W2 V c t, blk_b2 V c t, blk_W3 V c t, blk_b3 V c t]
  refine funext fun (j : S2000x64.Idx) => ?_
  obtain ⟨p, q, rfl⟩ : ∃ (p : Fin 2000) (q : Fin 64), j = ix2 p q := ⟨j 0, j 1, eq_ix2 j⟩
  show k0_pay1 (F := Ideal) (Gen.iblk0 V c 0 t) (V c main_arg3) (V c main_v0) (V c main_arg5) (V c main_v1)
      (V c main_arg7) (V c main_v2) (ix2 p q) = net V c (((cfg0.win 7).blk t).view.emb (ix2 p q))
  rw [out_emb t p q]
  exact pay_block (V c main_arg0) (Gen.iblk0 V c 0 t) (V c main_arg3) (V c main_v0) (V c main_arg5) (V c main_v1)
    (V c main_arg7) (V c main_v2) (rowOf t) (blk_rows V c t) p q

/-! ## The blocks cover the array -/

/-- An index of the output array is in point t's block iff each coordinate is in the block's range on its axis. -/
theorem mem_blk (t : Fin cfg0.N) (i : S100000x64.Idx) :
    i ∈ ((cfg0.win 7).blk t).view.set
      ↔ ∀ a : Fin 2, win0_7.index t a * S2000x64.size a ≤ (i a).val ∧ (i a).val < win0_7.index t a * S2000x64.size a + S2000x64.size a := by
  show i ∈ ((View.whole main_v3).slice (win0_7.rect t)).set ↔ _
  rw [View.set_slice_whole, Rect.mem_set_unit]
  exact Iff.rfl

/-- Row r of the output array lies in the block of point r / 2000, which is written back. -/
theorem cover (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  have hN : cfg0.N = 50 := N_0
  have hlt : (i 0).val / 2000 < cfg0.N := by rw [hN]; omega
  obtain ⟨-, -, -, -, -, -, -, -, -, -, -, -, -, -, e0, e1⟩ := index_facts ⟨(i 0).val / 2000, hlt⟩
  have e0' : win0_7.index ⟨(i 0).val / 2000, hlt⟩ (0 : Fin 2) = (i 0).val / 2000 := e0
  refine ⟨⟨(i 0).val / 2000, hlt⟩, flush0_7 _, ?_⟩
  rw [mem_blk]
  intro a
  match a with
  | ⟨0, _⟩ =>
    show win0_7.index ⟨(i 0).val / 2000, hlt⟩ (0 : Fin 2) * 2000 ≤ (i 0).val
      ∧ (i 0).val < win0_7.index ⟨(i 0).val / 2000, hlt⟩ (0 : Fin 2) * 2000 + 2000
    omega
  | ⟨1, _⟩ =>
    show win0_7.index ⟨(i 0).val / 2000, hlt⟩ (1 : Fin 2) * 64 ≤ (i 1).val
      ∧ (i 1).val < win0_7.index ⟨(i 0).val / 2000, hlt⟩ (1 : Fin 2) * 64 + 64
    omega

/-! ## The array after the region -/

/-- After the region the output array holds the network on the whole table of features. -/
theorem final0 (V : (c : Dev nD) → (b : Ref sig .tc) → Buf (Elt Ideal) ((c : Thread nD τ).loc b)) (c : Dev nD) :
    (Gen.dat0 (F := Ideal) V c).arrAt 7 cfg0.N
      = Cert.Spec.mlp (V c main_arg0) (V c main_arg3) (fun j => V c main_v0 (ValueIdx.ix2 (0 : Fin 1) j)) (V c main_arg5)
          (fun j => V c main_v1 (ValueIdx.ix2 (0 : Fin 1) j)) (V c main_arg7) (fun j => V c main_v2 (ValueIdx.ix2 (0 : Fin 1) j)) :=
  (Gen.dat0 (F := Ideal) V c).arrAt_eq_of_cover 7 (net V c) (fun t _ => flushed_eq V c t) cover

end Cert.KernelIdeal.Region0

end
-- ==== Proof.Region1Pay.lean ====
/-
  The edge kernel's stored value, read at one entry of its block.

  The body turns a block of 8000 source rows and 8000 destination rows (64 numbers each) into 8000 message rows:
  each row goes through its own dense layer (a product with a 64 × 64 matrix into a zero accumulator, plus a
  bias row repeated over the block), the two results are multiplied entry by entry and summed along the 64
  columns, the sum is scaled by one eighth, sent through the logistic function, and the source side's dense
  result is scaled by that gate. At entry (e, q) this is the specification's gated message of row e at
  coordinate q. Over the extended reals the format changes in the body are the identity.
-/
import proofs.«426639_j49065706389960_1_alg».proof.Proof.Gen.KernelIdeal.Skeleton
import proofs.«426639_j49065706389960_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen Idealize.ShloMosaic Idealize.ShloMosaic.TcCoe Idealize.SL.Sem
open Idealize.ShloMosaic.ValueIdx

/-! ## The matrix product [8000, 64] × [64, 64], one contracted axis

At output entry (e, q) and contraction coordinate k the left operand is read at (e, k) and the right one at (k, q). -/

theorem lhs_dot_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs_dot_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem rhs_dot_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhs_dot_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- The product into a zero accumulator, at entry (e, q): the sum over k of x (e, k) · W (k, q). -/
theorem matmul_ix2 (x : FVec Ideal S8000x64 .bf16) (W : FVec Ideal S64x64 .bf16) (e : Fin 8000) (q : Fin 64) :
    matmul dot_S8000x64_S64x64_S8000x64_1_0_0_1_n_n none x W (constant (F := Ideal) S8000x64 .f32 0x00000000#32) (ix2 e q)
      = ∑ k : Fin 64, x (ix2 e k) * W (ix2 k q) := by
  simp only [matmul]
  rw [Ideal.matmul_constant_zero_apply, ← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx (ix2 e q) ((ValueIdx.contrEquiv1 dot_S8000x64_S64x64_S8000x64_1_0_0_1_n_n 64 rfl rfl).symm k) = ix2 e k := funext fun a => Fin.ext (by
    match a with
    | ⟨0, _⟩ => exact lhs_dot_0 _ _
    | ⟨1, _⟩ => exact (lhs_dot_1 _ _).trans hk)
  have er : dot_S8000x64_S64x64_S8000x64_1_0_0_1_n_n.rhsIdx (ix2 e q) ((ValueIdx.contrEquiv1 dot_S8000x64_S64x64_S8000x64_1_0_0_1_n_n 64 rfl rfl).symm k) = ix2 k q := funext fun a => Fin.ext (by
    match a with
    | ⟨0, _⟩ => exact (rhs_dot_0 _ _).trans hk
    | ⟨1, _⟩ => exact rhs_dot_1 _ _)
  rw [el, er]

/-! ## The layout steps around the lane sum -/

/-- The sum along the 64 columns, at row e. -/
theorem laneSum_ix1 (v : FVec Ideal S8000x64 .f32) (h : S8000x64.Reduces [1] S8000) (hφ : FKind.Formats .f32)
    (hacc : (0x00000000#32 : BitVec 32) = 0x00000000#32) (e : Fin 8000) :
    multiReduction (F := Ideal) .add [1] S8000 v 0x00000000#32 h hφ hacc (ix1 e) = ∑ k : Fin 64, v (ix2 e k) := by
  refine (Ideal.multiReduction_add_single v 0x00000000#32 h hφ hacc (ix1 e)).trans ?_
  refine Finset.sum_congr rfl fun k _ => congrArg v ?_
  funext a
  apply Fin.ext
  match a with
  | ⟨0, _⟩ => rfl
  | ⟨1, _⟩ => rfl

/-- A column of 8000 numbers viewed as an [8000, 1] array reads, at (e, u), the column at e. -/
theorem shapeCast_a_a1_apply {α : Type} (v : S8000.Idx → α) (h : S8000.ShapeCasts S8000x1) (e : Fin 8000) (u : Fin 1) :
    shapeCast S8000x1 v h (ix2 e u) = v (ix1 e) :=
  shapeCast_apply v h _ _ (by
    have hu : u.val = 0 := by omega
    rw [Shape.rowMajor_val_two, Shape.rowMajor_val_one]
    show e.val = e.val * 1 + u.val
    rw [hu, Nat.mul_one, Nat.add_zero])

/-- An [8000, 1] array repeated along 64 columns reads, at (e, q), its row e. -/
theorem broadcastTo_a1_ab_apply {α : Type} (v : S8000x1.Idx → α) (h : S8000x1.Broadcasts S8000x64) (e : Fin 8000) (q : Fin 64) :
    broadcastTo S8000x64 v h (ix2 e q) = v (ix2 e (0 : Fin 1)) := by
  refine broadcastTo_apply v h (ix2 e q) (ix2 e (0 : Fin 1)) fun ax => ?_
  match ax with
  | ⟨0, _⟩ => rfl
  | ⟨1, _⟩ => rfl

/-! ## The body's value -/

/-- One side's dense layer on the block: the product into zeros plus the bias row repeated over the rows. -/
def denseBlock (x : Vec Ideal S8000x64 .f32) (W : Vec Ideal S64x64 .f32) (b : Vec Ideal S1x64 .f32) : FVec Ideal S8000x64 .f32 :=
  addf (matmul dot_S8000x64_S64x64_S8000x64_1_0_0_1_n_n none
      (truncf .bf16 (shapeCast S8000x64 x shapeCasts_S8000x64_S8000x64) bitsLt_bf16_f32) (truncf .bf16 W bitsLt_bf16_f32)
      (constant (F := Ideal) S8000x64 .f32 0x00000000#32))
    (broadcastTo S8000x64 (shapeCast S1x64 b shapeCasts_S1x64_S1x64) broadcasts_S1x64_S8000x64)

/-- At entry (e, q) it is the specification's dense layer of row e at coordinate q. -/
theorem denseBlock_apply (x : Vec Ideal S8000x64 .f32) (W : Vec Ideal S64x64 .f32) (b : Vec Ideal S1x64 .f32) (e : Fin 8000) (q : Fin 64) :
    denseBlock x W b (ix2 e q) = Cert.Spec.dense (fun a => x (ix2 e a)) W (fun j => b (ix2 (0 : Fin 1) j)) q := by
  unfold denseBlock
  rw [addf_apply, matmul_ix2, shapeCast_self, shapeCast_self, broadcastTo_1b_ab_apply]
  rfl

/-- The gate and the final scaling over two [8000, 64] arrays A, B: A scaled row by row by the logistic of one eighth
    of the row's sum of A · B. -/
def gated (A B : FVec Ideal S8000x64 .f32) : FVec Ideal S8000x64 .f32 :=
  mulf A (broadcastTo S8000x64
    (logistic (mulf
      (shapeCast S8000x1 (multiReduction (F := Ideal) .add [1] S8000 (mulf A B) 0x00000000#32 reduces_S8000x64_S8000 (.inl rfl) rfl) shapeCasts_S8000_S8000x1)
      (broadcast S8000x1 (Scalar.ofBits (F := Ideal) .f32 0x3E000000#32))))
    broadcasts_S8000x1_S8000x64)

theorem gated_apply (A B : FVec Ideal S8000x64 .f32) (e : Fin 8000) (q : Fin 64) :
    gated A B (ix2 e q)
      = A (ix2 e q) * Ideal.logistic ((∑ k : Fin 64, A (ix2 e k) * B (ix2 e k)) * Ideal.ofBits .f32 0x3E000000#32) := by
  unfold gated
  rw [mulf_apply, broadcastTo_a1_ab_apply]
  show A (ix2 e q) * Ideal.logistic (shapeCast S8000x1 _ _ (ix2 e (0 : Fin 1)) * Ideal.ofBits .f32 0x3E000000#32) = _
  rw [shapeCast_a_a1_apply, laneSum_ix1]
  rfl

/-- The stored value is the gate applied to the two dense blocks. -/
theorem pay_eq (x0 x1 : Vec Ideal S8000x64 .f32) (W1 W2 : Vec Ideal S64x64 .f32) (b1 b2 : Vec Ideal S1x64 .f32) :
    k1_pay1 (F := Ideal) x0 x1 W1 W2 b1 b2 = gated (denseBlock x0 W1 b1) (denseBlock x1 W2 b2) := rfl

/-- THE STORED VALUE AT (e, q): the gated message of row e of the two loaded blocks, at coordinate q. -/
theorem pay_apply (x0 x1 : Vec Ideal S8000x64 .f32) (W1 W2 : Vec Ideal S64x64 .f32) (b1 b2 : Vec Ideal S1x64 .f32) (e : Fin 8000) (q : Fin 64) :
    k1_pay1 (F := Ideal) x0 x1 W1 W2 b1 b2 (ix2 e q)
      = Cert.Spec.edgeRow (fun a => x0 (ix2 e a)) (fun a => x1 (ix2 e a)) W1 (fun j => b1 (ix2 (0 : Fin 1) j)) W2 (fun j => b2 (ix2 (0 : Fin 1) j)) q := by
  rw [pay_eq, gated_apply, denseBlock_apply]
  unfold Cert.Spec.edgeRow
  refine congrArg (fun s => _ * Ideal.logistic (s * _)) (Finset.sum_congr rfl fun k _ => ?_)
  rw [denseBlock_apply, denseBlock_apply]

end Cert.KernelIdeal.Region1

end
-- ==== Proof.Region1Value.lean ====
/-
  What the edge kernel leaves in its output array.

  The grid has 200 points; point t works on rows 8000 t … 8000 t + 7999 of the two gathered tables and of the
  output, while the two weight matrices and the two bias rows are the same whole arrays at every point. What
  point t writes back is therefore block t of ONE function of the arrays the region finds: the specification's
  gated messages of all edges. The 200 blocks cover the output (row r lies in block r / 8000), so after the
  last point the output array is that function.
-/
import proofs.«426639_j49065706389960_1_alg».proof.Proof.Gen.KernelIdeal.Frame
import proofs.«426639_j49065706389960_1_alg».proof.Proof.Region1Pay
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The gated messages of all edges, from the arrays as the region finds them. -/
abbrev G (c : Dev nD) : S1600000x64.Idx → EReal :=
  Cert.Spec.edge (V c main_v4) (V c main_v5) (V c main_arg9) (fun j => V c main_v6 (ix2 (0 : Fin 1) j))
    (V c main_arg11) (fun j => V c main_v7 (ix2 (0 : Fin 1) j))

/-! ## The block indices over the grid -/

/-- The two gathered tables and the output move down one block of rows per point; the weights and biases stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row e of block t is row 8000 t + e of the array. -/
theorem row_lt (t : Fin cfg1.N) (e : Fin 8000) : t.val * 8000 + e.val < 1600000 := by
  have hN : cfg1.N = 200 := N_1
  have ht := t.isLt
  have he := e.isLt
  omega

/-! ## The input blocks at point t, read off the arrays -/

/-- Row e of the source block. -/
theorem src_row (c : Dev nD) (t : Fin cfg1.N) (e : Fin 8000) :
    (fun a : Fin 64 => (Gen.iblk1 V c 0 t : Vec Ideal S8000x64 .f32) (ix2 e a))
      = fun a => (V c main_v4 : S1600000x64.Idx → EReal) (ix2 ⟨t.val * 8000 + e.val, row_lt t e⟩ a) := by
  obtain ⟨h0, h1, -⟩ := idx_facts t
  funext a
  unfold Gen.iblk1
  rw [View.read_apply]
  show V c main_v4 _ = V c main_v4 _
  refine congrArg (V c main_v4) ?_
  funext ax
  apply Fin.ext
  match ax with
  | ⟨0, _⟩ => show win1_0.index t (0 : Fin 2) * 8000 + 1 * e.val = t.val * 8000 + e.val; rw [h0]; omega
  | ⟨1, _⟩ => show win1_0.index t (1 : Fin 2) * 64 + 1 * a.val = a.val; rw [h1]; omega

/-- Row e of the destination block. -/
theorem dst_row (c : Dev nD) (t : Fin cfg1.N) (e : Fin 8000) :
    (fun a : Fin 64 => (Gen.iblk1 V c 1 t : Vec Ideal S8000x64 .f32) (ix2 e a))
      = fun a => (V c main_v5 : S1600000x64.Idx → EReal) (ix2 ⟨t.val * 8000 + e.val, row_lt t e⟩ a) := by
  obtain ⟨-, -, h0, h1, -⟩ := idx_facts t
  funext a
  unfold Gen.iblk1
  rw [View.read_apply]
  show V c main_v5 _ = V c main_v5 _
  refine congrArg (V c main_v5) ?_
  funext ax
  apply Fin.ext
  match ax with
  | ⟨0, _⟩ => show win1_1.index t (0 : Fin 2) * 8000 + 1 * e.val = t.val * 8000 + e.val; rw [h0]; omega
  | ⟨1, _⟩ => show win1_1.index t (1 : Fin 2) * 64 + 1 * a.val = a.val; rw [h1]; omega

/-- The source side's weights: the whole array at every point. -/
theorem wsp_eq (c : Dev nD) (t : Fin cfg1.N) : (Gen.iblk1 V c 2 t : Vec Ideal S64x64 .f32) = V c main_arg9 := by
  obtain ⟨-, -, -, -, h0, h1, -⟩ := idx_facts t
  funext j
  unfold Gen.iblk1
  rw [View.read_apply]
  show V c main_arg9 _ = V c main_arg9 j
  refine congrArg (V c main_arg9) ?_
  funext ax
  apply Fin.ext
  match ax with
  | ⟨0, _⟩ => show win1_2.index t (0 : Fin 2) * 64 + 1 * (j 0).val = (j 0).val; rw [h0]; omega
  | ⟨1, _⟩ => show win1_2.index t (1 : Fin 2) * 64 + 1 * (j 1).val = (j 1).val; rw [h1]; omega

/-- The source side's bias row. -/
theorem bsp_eq (c : Dev nD) (t : Fin cfg1.N) : (Gen.iblk1 V c 3 t : Vec Ideal S1x64 .f32) = V c main_v6 := by
  obtain ⟨-, -, -, -, -, -, h0, h1, -⟩ := idx_facts t
  funext j
  unfold Gen.iblk1
  rw [View.read_apply]
  show V c main_v6 _ = V c main_v6 j
  refine congrArg (V c main_v6) ?_
  funext ax
  apply Fin.ext
  match ax with
  | ⟨0, _⟩ => show win1_3.index t (0 : Fin 2) * 1 + 1 * (j 0).val = (j 0).val; rw [h0]; omega
  | ⟨1, _⟩ => show win1_3.index t (1 : Fin 2) * 64 + 1 * (j 1).val = (j 1).val; rw [h1]; omega

/-- The destination side's weights. -/
theorem wdp_eq (c : Dev nD) (t : Fin cfg1.N) : (Gen.iblk1 V c 4 t : Vec Ideal S64x64 .f32) = V c main_arg11 := by
  obtain ⟨-, -, -, -, -, -, -, -, h0, h1, -⟩ := idx_facts t
  funext j
  unfold Gen.iblk1
  rw [View.read_apply]
  show V c main_arg11 _ = V c main_arg11 j
  refine congrArg (V c main_arg11) ?_
  funext ax
  apply Fin.ext
  match ax with
  | ⟨0, _⟩ => show win1_4.index t (0 : Fin 2) * 64 + 1 * (j 0).val = (j 0).val; rw [h0]; omega
  | ⟨1, _⟩ => show win1_4.index t (1 : Fin 2) * 64 + 1 * (j 1).val = (j 1).val; rw [h1]; omega

/-- The destination side's bias row. -/
theorem bdp_eq (c : Dev nD) (t : Fin cfg1.N) : (Gen.iblk1 V c 5 t : Vec Ideal S1x64 .f32) = V c main_v7 := by
  obtain ⟨-, -, -, -, -, -, -, -, -, -, h0, h1, -⟩ := idx_facts t
  funext j
  unfold Gen.iblk1
  rw [View.read_apply]
  show V c main_v7 _ = V c main_v7 j
  refine congrArg (V c main_v7) ?_
  funext ax
  apply Fin.ext
  match ax with
  | ⟨0, _⟩ => show win1_5.index t (0 : Fin 2) * 1 + 1 * (j 0).val = (j 0).val; rw [h0]; omega
  | ⟨1, _⟩ => show win1_5.index t (1 : Fin 2) * 64 + 1 * (j 1).val = (j 1).val; rw [h1]; omega

/-! ## What point t writes back -/

/-- The body's stored value at entry (e, q) of point t's block is the gated message of edge 8000 t + e at q. -/
theorem entry (c : Dev nD) (t : Fin cfg1.N) (e : Fin 8000) (q : Fin 64) :
    k1_pay1 (F := Ideal) (Gen.iblk1 V c 0 t) (Gen.iblk1 V c 1 t) (Gen.iblk1 V c 2 t) (Gen.iblk1 V c 4 t) (Gen.iblk1 V c 3 t) (Gen.iblk1 V c 5 t) (ix2 e q)
      = G V c (ix2 ⟨t.val * 8000 + e.val, row_lt t e⟩ q) := by
  refine (pay_apply _ _ _ _ _ _ e q).trans ?_
  rw [src_row V c t e, dst_row V c t e, wsp_eq V c t, bsp_eq V c t, wdp_eq V c t, bdp_eq V c t]
  rfl

/-- WHAT POINT t WRITES BACK is block t of the gated messages of all edges. -/
theorem flushed_eq (c : Dev nD) (t : Fin cfg1.N) :
    (Gen.dat1 (F := Ideal) V c).flushed 6 t = ((cfg1.win 6).blk t).view.read (Elt Ideal) (G V c) := by
  show (cfg1.win 6).cut (grid1.coords t) ((Gen.dat1 V c).after 6 t) = _
  rw [Gen.after1_6]
  unfold Gen.out1_6
  rw [View.canon_unit_zero hz]
  simp only [View.ld_unit_zero (S := S8000x64) hz, View.ld_unit_zero (S := S64x64) hz, View.ld_unit_zero (S := S1x64) hz]
  obtain ⟨-, -, -, -, -, -, -, -, -, -, -, -, h0, h1⟩ := idx_facts t
  funext j
  obtain ⟨e, q, rfl⟩ : ∃ (e : Fin 8000) (q : Fin 64), j = ix2 e q := ⟨j 0, j 1, eq_ix2 j⟩
  rw [View.read_apply]
  refine (entry V c t e q).trans (congrArg (G V c) ?_)
  funext ax
  apply Fin.ext
  match ax with
  | ⟨0, _⟩ => show t.val * 8000 + e.val = win1_6.index t (0 : Fin 2) * 8000 + 1 * e.val; rw [h0]; omega
  | ⟨1, _⟩ => show q.val = win1_6.index t (1 : Fin 2) * 64 + 1 * q.val; rw [h1]; omega

/-! ## The blocks cover the array -/

/-- An index of the array is in point t's block iff each coordinate is in the block's range on its axis. -/
theorem mem_blk (t : Fin cfg1.N) (i : S1600000x64.Idx) :
    i ∈ ((cfg1.win 6).blk t).view.set ↔ ∀ a : Fin 2, win1_6.index t a * S8000x64.size a ≤ (i a).val ∧ (i a).val < win1_6.index t a * S8000x64.size a + S8000x64.size a := by
  show i ∈ ((View.whole main_v8).slice (win1_6.rect t)).set ↔ _
  rw [View.set_slice_whole, Rect.mem_set_unit]
  exact Iff.rfl

/-- Row r of the array lies in the block of point r / 8000. -/
theorem cover (i : S1600000x64.Idx) :
    ∃ t : Fin cfg1.N, (cfg1.win 6).flush t = true ∧ i ∈ ((cfg1.win 6).blk t).view.set := by
  have hi0 : (i 0).val < 1600000 := (i 0).isLt
  have hi1 : (i 1).val < 64 := (i 1).isLt
  have hN : cfg1.N = 200 := N_1
  obtain ⟨t, ht⟩ : ∃ t : Fin cfg1.N, t.val = (i 0).val / 8000 := ⟨⟨(i 0).val / 8000, by rw [hN]; omega⟩, rfl⟩
  obtain ⟨-, -, -, -, -, -, -, -, -, -, -, -, h0, h1⟩ := idx_facts t
  refine ⟨t, flush1_6 t, ?_⟩
  rw [mem_blk]
  intro a
  match a with
  | ⟨0, _⟩ => show win1_6.index t (0 : Fin 2) * 8000 ≤ (i 0).val ∧ (i 0).val < win1_6.index t (0 : Fin 2) * 8000 + 8000; rw [h0]; omega
  | ⟨1, _⟩ => show win1_6.index t (1 : Fin 2) * 64 ≤ (i 1).val ∧ (i 1).val < win1_6.index t (1 : Fin 2) * 64 + 64; rw [h1]; omega

/-! ## The array after the last point -/

/-- THE OUTPUT ARRAY after the region: the gated messages of all edges, from the arrays as the region finds them. -/
theorem final1 (V : (c : Dev nD) → (b : Ref sig .tc) → Buf (Elt Ideal) ((c : Thread nD τ).loc b)) (c : Dev nD) :
    (Gen.dat1 (F := Ideal) V c).arrAt 6 cfg1.N
      = Cert.Spec.edge (V c main_v4) (V c main_v5) (V c main_arg9) (fun j => V c main_v6 (ValueIdx.ix2 (0 : Fin 1) j))
          (V c main_arg11) (fun j => V c main_v7 (ValueIdx.ix2 (0 : Fin 1) j)) :=
  (Gen.dat1 (F := Ideal) V c).arrAt_eq_of_cover 6 (G V c) (fun t _ => flushed_eq V c t) (fun i => cover i)

end Cert.KernelIdeal.Region1

end
-- ==== Proof.IndexRange.lean ====
/-
  The precondition's index ranges, and the fill-mode row take under them.

  (1) The printed precondition ends in four whole-array tests of the two index vectors: every word is at least 0 and below
  100000, read signed. Each test is a comparison against a broadcast constant reduced by "and" to one bit; the claim assumes the
  conjunction of all tests is 1. A conjunction that is 1 has every conjunct 1; a reduction by "and" that is 1 met only 1s; a
  signed comparison that is 1 orders the signed values of its operands. So every index word x has 0 ≤ x < 100000.

  (2) The row take first wraps a negative index by adding the table height, then tests the wrapped index against [0, 99999],
  and where the test fails returns a fill word instead of the gathered row. For an index x with 0 ≤ x < 100000 the test
  x < 0 is false, so wrapping returns x itself; then x ≥ 0 and x ≤ 99999 both hold, the row's mask bit is 1 (an "and" over a
  row of 1s starting from 1), and the selection returns the gathered row everywhere.
-/
import proofs.«426639_j49065706389960_1_alg».proof.Proof.Gen.Pre_finite_inputs
import Idealize.ShloMosaic.Lib.ReduceAll
import Idealize.ShloMosaic.Lib.Affine
import Idealize.ShloMosaic.PureOps.Ideal

noncomputable section

namespace Cert.IndexRange

open Idealize.ShloMosaic

/-- Every word of an index vector, read signed, lies in [0, 100000). -/
def InRange (s : IVec (⟨1, ![1600000]⟩ : Shape) 32) : Prop := ∀ i, 0 ≤ (s i).toInt ∧ (s i).toInt < 100000

/-! ## The three constants, read signed -/

theorem toInt_lo : (0#32 : BitVec 32).toInt = 0 := by decide
theorem toInt_hi : (100000#32 : BitVec 32).toInt = 100000 := by decide
theorem toInt_top : (99999#32 : BitVec 32).toInt = 99999 := by decide

/-! ## (1) The ranges, out of the precondition -/

open Cert.Pre_finite_inputs in
theorem inRange_of_pre [Cert.Pre_finite_inputs.Facts]
    (a0 : FVec Ideal S100000x128 .f32) (a1 : IVec S1600000 32) (a2 : IVec S1600000 32) (a3 : FVec Ideal S128x256 .f32)
    (a4 : FVec Ideal S256 .f32) (a5 : FVec Ideal S256x512 .f32) (a6 : FVec Ideal S512 .f32) (a7 : FVec Ideal S512x64 .f32)
    (a8 : FVec Ideal S64 .f32) (a9 : FVec Ideal S64x64 .f32) (a10 : FVec Ideal S64 .f32) (a11 : FVec Ideal S64x64 .f32)
    (a12 : FVec Ideal S64 .f32)
    (h : Cert.Pre_finite_inputs.fn (F := Ideal) a0 a1 a2 a3 a4 a5 a6 a7 a8 a9 a10 a11 a12 = (fun _ => 1#1)) :
    InRange a1 ∧ InRange a2 := by
  haveI : Subsingleton S_.Idx := ⟨fun a b => funext fun d => d.elim0⟩
  -- the one bit of the result
  have e := congrFun h (fun d => d.elim0)
  dsimp only [Cert.Pre_finite_inputs.fn, fn_part1, fn_part2, fn_part3, fn_part4] at e
  -- the last four conjuncts of the chain, innermost last
  obtain ⟨e, hd1⟩ := IntOp.andi_eq_one.1 e
  obtain ⟨e, hd0⟩ := IntOp.andi_eq_one.1 e
  obtain ⟨e, hs1⟩ := IntOp.andi_eq_one.1 e
  obtain ⟨-, hs0⟩ := IntOp.andi_eq_one.1 e
  refine ⟨fun i => ⟨?_, ?_⟩, fun i => ⟨?_, ?_⟩⟩
  · have c := IntOp.cmpi_sge.1 (Host.reduce_andi_all _ _ _ _ _ hs0 i)
    rw [← toInt_lo]; exact c
  · have c := IntOp.cmpi_slt.1 (Host.reduce_andi_all _ _ _ _ _ hs1 i)
    rw [← toInt_hi]; exact c
  · have c := IntOp.cmpi_sge.1 (Host.reduce_andi_all _ _ _ _ _ hd0 i)
    rw [← toInt_lo]; exact c
  · have c := IntOp.cmpi_slt.1 (Host.reduce_andi_all _ _ _ _ _ hd1 i)
    rw [← toInt_hi]; exact c

/-! ## (2) The fill-mode take is the plain gather -/

/-- A left fold by "and" from 1 over words that are all 1 is 1. -/
theorem foldl_andi_one {ι : Type} (f : ι → BitVec 1) (h : ∀ n, f n = 1#1) (l : List ι) :
    l.foldl (fun r n => IntOp.andi r (f n)) 1#1 = 1#1 := by
  induction l with
  | nil => rfl
  | cons a l ih =>
    have e : IntOp.andi (1#1 : BitVec 1) 1#1 = 1#1 := by decide
    rw [List.foldl_cons, h a, e]; exact ih

/-- Wrapping a negative index by the table height leaves an index already in range as it is. -/
theorem wrap_eq (s : IVec (⟨1, ![1600000]⟩ : Shape) 32) (hs : InRange s)
    (hb0 : (⟨0, ![]⟩ : Shape).BroadcastsInDim (⟨1, ![1600000]⟩ : Shape) (![] : Fin 0 → Fin (⟨1, ![1600000]⟩ : Shape).rank)) :
    select (cmpi .slt s (broadcastInDim (⟨1, ![1600000]⟩ : Shape) ![] hb0 (constantI (⟨0, ![]⟩ : Shape) 32 0#32)))
      (addi s (broadcastInDim (⟨1, ![1600000]⟩ : Shape) ![] hb0 (constantI (⟨0, ![]⟩ : Shape) 32 100000#32))) s = s := by
  funext k
  show Scalar.select (IntOp.cmpi .slt (s k) 0#32) _ _ = s k
  unfold Scalar.select
  rw [if_neg]
  intro hc
  have c := IntOp.cmpi_slt.1 hc
  rw [toInt_lo] at c
  have := (hs k).1
  omega

theorem fill_eq_gather (s : IVec (⟨1, ![1600000]⟩ : Shape) 32) (hs : InRange s)
    (hb0 : (⟨0, ![]⟩ : Shape).BroadcastsInDim (⟨1, ![1600000]⟩ : Shape) (![] : Fin 0 → Fin (⟨1, ![1600000]⟩ : Shape).rank))
    (hb1 : (⟨1, ![1600000]⟩ : Shape).BroadcastsInDim (⟨2, ![1600000, 1]⟩ : Shape) (![0] : Fin 1 → Fin (⟨2, ![1600000, 1]⟩ : Shape).rank))
    (hb2 : (⟨0, ![]⟩ : Shape).BroadcastsInDim (⟨2, ![1600000, 1]⟩ : Shape) (![] : Fin 0 → Fin (⟨2, ![1600000, 1]⟩ : Shape).rank))
    (hb3 : (⟨1, ![1]⟩ : Shape).BroadcastsInDim (⟨2, ![1, 1]⟩ : Shape) (![1] : Fin 1 → Fin (⟨2, ![1, 1]⟩ : Shape).rank))
    (hb4 : (⟨2, ![1, 1]⟩ : Shape).BroadcastsInDim (⟨2, ![1600000, 1]⟩ : Shape) (![0, 1] : Fin 2 → Fin (⟨2, ![1600000, 1]⟩ : Shape).rank))
    (hr : (⟨2, ![1600000, 1]⟩ : Shape).ReducesTo [1] (⟨1, ![1600000]⟩ : Shape))
    (hu : 0 < (⟨0, ![]⟩ : Shape).numel)
    (hb5 : (⟨1, ![1600000]⟩ : Shape).BroadcastsInDim (⟨2, ![1600000, 64]⟩ : Shape) (![0] : Fin 1 → Fin (⟨2, ![1600000, 64]⟩ : Shape).rank))
    (A B : FVec Ideal (⟨2, ![1600000, 64]⟩ : Shape) .f32) :
    select
      (broadcastInDim (⟨2, ![1600000, 64]⟩ : Shape) ![0] hb5
        (Host.reduce IntOp.andi
          (andi
            (cmpi .sge
              (broadcastInDim (⟨2, ![1600000, 1]⟩ : Shape) ![0] hb1
                (select (cmpi .slt s (broadcastInDim (⟨1, ![1600000]⟩ : Shape) ![] hb0 (constantI (⟨0, ![]⟩ : Shape) 32 0#32)))
                  (addi s (broadcastInDim (⟨1, ![1600000]⟩ : Shape) ![] hb0 (constantI (⟨0, ![]⟩ : Shape) 32 100000#32))) s))
              (broadcastInDim (⟨2, ![1600000, 1]⟩ : Shape) ![] hb2 (constantI (⟨0, ![]⟩ : Shape) 32 0#32)))
            (cmpi .sle
              (broadcastInDim (⟨2, ![1600000, 1]⟩ : Shape) ![0] hb1
                (select (cmpi .slt s (broadcastInDim (⟨1, ![1600000]⟩ : Shape) ![] hb0 (constantI (⟨0, ![]⟩ : Shape) 32 0#32)))
                  (addi s (broadcastInDim (⟨1, ![1600000]⟩ : Shape) ![] hb0 (constantI (⟨0, ![]⟩ : Shape) 32 100000#32))) s))
              (broadcastInDim (⟨2, ![1600000, 1]⟩ : Shape) ![0, 1] hb4
                (broadcastInDim (⟨2, ![1, 1]⟩ : Shape) ![1] hb3 (constantI (⟨1, ![1]⟩ : Shape) 32 99999#32)))))
          (constantI (⟨0, ![]⟩ : Shape) 1 1#1) hr hu))
      A B = A := by
  rw [wrap_eq s hs hb0]
  -- every bit of the two-sided test is 1
  have elem : ∀ i, andi
      (cmpi .sge (broadcastInDim (⟨2, ![1600000, 1]⟩ : Shape) ![0] hb1 s)
        (broadcastInDim (⟨2, ![1600000, 1]⟩ : Shape) ![] hb2 (constantI (⟨0, ![]⟩ : Shape) 32 0#32)))
      (cmpi .sle (broadcastInDim (⟨2, ![1600000, 1]⟩ : Shape) ![0] hb1 s)
        (broadcastInDim (⟨2, ![1600000, 1]⟩ : Shape) ![0, 1] hb4
          (broadcastInDim (⟨2, ![1, 1]⟩ : Shape) ![1] hb3 (constantI (⟨1, ![1]⟩ : Shape) 32 99999#32)))) i = 1#1 := by
    intro i
    -- a broadcast read at an index is the operand at some index
    obtain ⟨k, hk⟩ : ∃ k, broadcastInDim (⟨2, ![1600000, 1]⟩ : Shape) ![0] hb1 s i = s k := ⟨_, rfl⟩
    have hZ : broadcastInDim (⟨2, ![1600000, 1]⟩ : Shape) ![] hb2 (constantI (⟨0, ![]⟩ : Shape) 32 0#32) i = 0#32 := rfl
    have hN : broadcastInDim (⟨2, ![1600000, 1]⟩ : Shape) ![0, 1] hb4
        (broadcastInDim (⟨2, ![1, 1]⟩ : Shape) ![1] hb3 (constantI (⟨1, ![1]⟩ : Shape) 32 99999#32)) i = 99999#32 := rfl
    show IntOp.andi (IntOp.cmpi .sge (broadcastInDim (⟨2, ![1600000, 1]⟩ : Shape) ![0] hb1 s i) _)
      (IntOp.cmpi .sle (broadcastInDim (⟨2, ![1600000, 1]⟩ : Shape) ![0] hb1 s i) _) = 1#1
    rw [hk, hZ, hN, IntOp.andi_eq_one, IntOp.cmpi_sge, IntOp.cmpi_sle, toInt_lo, toInt_top]
    have := hs k
    omega
  funext j
  -- the mask bit of row j: an "and" from 1 over bits that are all 1
  have hmask : broadcastInDim (⟨2, ![1600000, 64]⟩ : Shape) ![0] hb5
      (Host.reduce IntOp.andi
        (andi
          (cmpi .sge (broadcastInDim (⟨2, ![1600000, 1]⟩ : Shape) ![0] hb1 s)
            (broadcastInDim (⟨2, ![1600000, 1]⟩ : Shape) ![] hb2 (constantI (⟨0, ![]⟩ : Shape) 32 0#32)))
          (cmpi .sle (broadcastInDim (⟨2, ![1600000, 1]⟩ : Shape) ![0] hb1 s)
            (broadcastInDim (⟨2, ![1600000, 1]⟩ : Shape) ![0, 1] hb4
              (broadcastInDim (⟨2, ![1, 1]⟩ : Shape) ![1] hb3 (constantI (⟨1, ![1]⟩ : Shape) 32 99999#32)))))
        (constantI (⟨0, ![]⟩ : Shape) 1 1#1) hr hu) j = 1#1 := by
    show Host.reduce IntOp.andi _ _ hr hu _ = 1#1
    rw [Host.reduce_eq_foldl]
    exact foldl_andi_one _ elem _
  show Scalar.select _ (A j) (B j) = A j
  rw [hmask]
  exact if_pos rfl

end Cert.IndexRange

end
-- ==== Proof.RefSide.lean ====
/-
  The reference's stage functions, read at an index, are the specification's. Each dense layer is the sum over
  the input coordinate of input times weight plus the bias read at the column; max(·, 0) follows the first two
  layers of the node network. On the edge side the two projections are dense layers over the gathered rows, the
  row sum starts from the zero word (so it is the bare sum), the scale is the one-eighth word, and
  1 / (1 + exp (−x)) with the word for one is the logistic.
-/
import proofs.«426639_j49065706389960_1_alg».proof.Proof.Gen.ReferenceIdeal.Read
import proofs.«426639_j49065706389960_1_alg».proof.Proof.Spec
import Idealize.ShloMosaic.Lib.ValueIdx
import Idealize.ShloMosaic.Lib.IdealHost
import Idealize.ShloMosaic.PureOps.Ideal
import Idealize.ShloMosaic.PureOps.Ideal.Laws

noncomputable section

namespace Cert.ReferenceIdeal.RefValue

open Cert.ReferenceIdeal Cert.ReferenceIdeal.Read Idealize.ShloMosaic Idealize.ShloMosaic.ValueIdx

variable (x0 : (⟨S100000x128, .f32⟩ : BufTy).Contents (Elt Ideal))
  (x1 x2 : (⟨S1600000, .i32⟩ : BufTy).Contents (Elt Ideal))
  (x3 : (⟨S128x256, .f32⟩ : BufTy).Contents (Elt Ideal)) (x4 : (⟨S256, .f32⟩ : BufTy).Contents (Elt Ideal))
  (x5 : (⟨S256x512, .f32⟩ : BufTy).Contents (Elt Ideal)) (x6 : (⟨S512, .f32⟩ : BufTy).Contents (Elt Ideal))
  (x7 : (⟨S512x64, .f32⟩ : BufTy).Contents (Elt Ideal)) (x8 : (⟨S64, .f32⟩ : BufTy).Contents (Elt Ideal))
  (x9 : (⟨S64x64, .f32⟩ : BufTy).Contents (Elt Ideal)) (x10 : (⟨S64, .f32⟩ : BufTy).Contents (Elt Ideal))
  (x11 : (⟨S64x64, .f32⟩ : BufTy).Contents (Elt Ideal)) (x12 : (⟨S64, .f32⟩ : BufTy).Contents (Elt Ideal))

/-- The first layer with its max(·, 0), at row p and column j. -/
theorem v4_ix2 (p : Fin 100000) (j : Fin 256) :
    val_main_v4 (F := Ideal) x0 x3 x4 (ix2 p j)
      = Cert.Spec.relu (Cert.Spec.dense (fun a => x0 (ix2 p a)) x3 (fun j => x4 (ix1 j)) j) := by
  rw [val_main_v4_apply, val_main_v3_apply, val_main_v0_apply, val_main_v2_apply, val_main_v1_apply,
    val_main_call0_v0_apply, val_main_call0_cst_apply]
  have e1 : ∀ k : Fin 128, lidx_main_v0 (ix2 p j) k = ix2 p k := fun k =>
    funext fun a => Fin.ext (by match a with | ⟨0, _⟩ => rfl | ⟨1, _⟩ => rfl)
  have e2 : ∀ k : Fin 128, ridx_main_v0 (ix2 p j) k = ix2 k j := fun k =>
    funext fun a => Fin.ext (by match a with | ⟨0, _⟩ => rfl | ⟨1, _⟩ => rfl)
  have e3 : idx_main_v1 (idx_main_v2 (ix2 p j)) = ix1 j :=
    funext fun a => Fin.ext (by match a with | ⟨0, _⟩ => rfl)
  simp only [e1, e2, e3]
  rfl

/-- The second layer with its max(·, 0), at row p and column j. -/
theorem v9_ix2 (p : Fin 100000) (j : Fin 512) :
    val_main_v9 (F := Ideal) x0 x3 x4 x5 x6 (ix2 p j)
      = Cert.Spec.relu (Cert.Spec.dense
          (fun j' => Cert.Spec.relu (Cert.Spec.dense (fun a => x0 (ix2 p a)) x3 (fun j => x4 (ix1 j)) j'))
          x5 (fun j => x6 (ix1 j)) j) := by
  rw [val_main_v9_apply, val_main_v8_apply, val_main_v5_apply, val_main_v7_apply, val_main_v6_apply,
    val_main_call1_v0_apply, val_main_call1_cst_apply]
  have e1 : ∀ k : Fin 256, lidx_main_v5 (ix2 p j) k = ix2 p k := fun k =>
    funext fun a => Fin.ext (by match a with | ⟨0, _⟩ => rfl | ⟨1, _⟩ => rfl)
  have e2 : ∀ k : Fin 256, ridx_main_v5 (ix2 p j) k = ix2 k j := fun k =>
    funext fun a => Fin.ext (by match a with | ⟨0, _⟩ => rfl | ⟨1, _⟩ => rfl)
  have e3 : idx_main_v6 (idx_main_v7 (ix2 p j)) = ix1 j :=
    funext fun a => Fin.ext (by match a with | ⟨0, _⟩ => rfl)
  simp only [e1, e2, e3, v4_ix2]
  rfl

/-- The node network's output table is the specification's. -/
theorem v13_eq (x0 : (⟨S100000x128, .f32⟩ : BufTy).Contents (Elt Ideal))
    (x3 : (⟨S128x256, .f32⟩ : BufTy).Contents (Elt Ideal)) (x4 : (⟨S256, .f32⟩ : BufTy).Contents (Elt Ideal))
    (x5 : (⟨S256x512, .f32⟩ : BufTy).Contents (Elt Ideal)) (x6 : (⟨S512, .f32⟩ : BufTy).Contents (Elt Ideal))
    (x7 : (⟨S512x64, .f32⟩ : BufTy).Contents (Elt Ideal)) (x8 : (⟨S64, .f32⟩ : BufTy).Contents (Elt Ideal)) :
    val_main_v13 (F := Ideal) x0 x3 x4 x5 x6 x7 x8
      = Cert.Spec.mlp x0 x3 (fun j => x4 (ix1 j)) x5 (fun j => x6 (ix1 j)) x7 (fun j => x8 (ix1 j)) := by
  funext i
  obtain ⟨p, q, rfl⟩ : ∃ (p : Fin 100000) (q : Fin 64), i = ix2 p q := ⟨i 0, i 1, eq_ix2 i⟩
  rw [Cert.Spec.mlp_ix2, val_main_v13_apply, val_main_v10_apply, val_main_v12_apply, val_main_v11_apply]
  have e1 : ∀ k : Fin 512, lidx_main_v10 (ix2 p q) k = ix2 p k := fun k =>
    funext fun a => Fin.ext (by match a with | ⟨0, _⟩ => rfl | ⟨1, _⟩ => rfl)
  have e2 : ∀ k : Fin 512, ridx_main_v10 (ix2 p q) k = ix2 k q := fun k =>
    funext fun a => Fin.ext (by match a with | ⟨0, _⟩ => rfl | ⟨1, _⟩ => rfl)
  have e3 : idx_main_v11 (idx_main_v12 (ix2 p q)) = ix1 q :=
    funext fun a => Fin.ext (by match a with | ⟨0, _⟩ => rfl)
  simp only [e1, e2, e3, v9_ix2]
  rfl

/-- The source projection at edge e and column q, the gathered table kept as a term. -/
theorem v24_ix2 (e : Fin 1600000) (q : Fin 64) :
    val_main_v24 (F := Ideal) x0 x1 x3 x4 x5 x6 x7 x8 x9 x10 (ix2 e q)
      = Cert.Spec.dense (fun a => val_main_v20 (F := Ideal) x0 x1 x3 x4 x5 x6 x7 x8 (ix2 e a)) x9
          (fun j => x10 (ix1 j)) q := by
  rw [val_main_v24_apply, val_main_v21_apply, val_main_v23_apply, val_main_v22_apply]
  generalize val_main_v20 (F := Ideal) x0 x1 x3 x4 x5 x6 x7 x8 = S
  have e1 : ∀ k : Fin 64, lidx_main_v21 (ix2 e q) k = ix2 e k := fun k =>
    funext fun a => Fin.ext (by match a with | ⟨0, _⟩ => rfl | ⟨1, _⟩ => rfl)
  have e2 : ∀ k : Fin 64, ridx_main_v21 (ix2 e q) k = ix2 k q := fun k =>
    funext fun a => Fin.ext (by match a with | ⟨0, _⟩ => rfl | ⟨1, _⟩ => rfl)
  have e3 : idx_main_v22 (idx_main_v23 (ix2 e q)) = ix1 q :=
    funext fun a => Fin.ext (by match a with | ⟨0, _⟩ => rfl)
  simp only [e1, e2, e3]
  rfl

/-- The destination projection at edge e and column q, the gathered table kept as a term. -/
theorem v35_ix2 (e : Fin 1600000) (q : Fin 64) :
    val_main_v35 (F := Ideal) x0 x2 x3 x4 x5 x6 x7 x8 x11 x12 (ix2 e q)
      = Cert.Spec.dense (fun a => val_main_v31 (F := Ideal) x0 x2 x3 x4 x5 x6 x7 x8 (ix2 e a)) x11
          (fun j => x12 (ix1 j)) q := by
  rw [val_main_v35_apply, val_main_v32_apply, val_main_v34_apply, val_main_v33_apply]
  generalize val_main_v31 (F := Ideal) x0 x2 x3 x4 x5 x6 x7 x8 = D
  have e1 : ∀ k : Fin 64, lidx_main_v32 (ix2 e q) k = ix2 e k := fun k =>
    funext fun a => Fin.ext (by match a with | ⟨0, _⟩ => rfl | ⟨1, _⟩ => rfl)
  have e2 : ∀ k : Fin 64, ridx_main_v32 (ix2 e q) k = ix2 k q := fun k =>
    funext fun a => Fin.ext (by match a with | ⟨0, _⟩ => rfl | ⟨1, _⟩ => rfl)
  have e3 : idx_main_v33 (idx_main_v34 (ix2 e q)) = ix1 q :=
    funext fun a => Fin.ext (by match a with | ⟨0, _⟩ => rfl)
  simp only [e1, e2, e3]
  rfl

/-- The gated messages are the specification's, over the two gathered tables. -/
theorem v48_eq (x0 : (⟨S100000x128, .f32⟩ : BufTy).Contents (Elt Ideal))
    (x1 x2 : (⟨S1600000, .i32⟩ : BufTy).Contents (Elt Ideal))
    (x3 : (⟨S128x256, .f32⟩ : BufTy).Contents (Elt Ideal)) (x4 : (⟨S256, .f32⟩ : BufTy).Contents (Elt Ideal))
    (x5 : (⟨S256x512, .f32⟩ : BufTy).Contents (Elt Ideal)) (x6 : (⟨S512, .f32⟩ : BufTy).Contents (Elt Ideal))
    (x7 : (⟨S512x64, .f32⟩ : BufTy).Contents (Elt Ideal)) (x8 : (⟨S64, .f32⟩ : BufTy).Contents (Elt Ideal))
    (x9 : (⟨S64x64, .f32⟩ : BufTy).Contents (Elt Ideal)) (x10 : (⟨S64, .f32⟩ : BufTy).Contents (Elt Ideal))
    (x11 : (⟨S64x64, .f32⟩ : BufTy).Contents (Elt Ideal)) (x12 : (⟨S64, .f32⟩ : BufTy).Contents (Elt Ideal)) :
    val_main_v48 (F := Ideal) x0 x1 x2 x3 x4 x5 x6 x7 x8 x9 x10 x11 x12
      = Cert.Spec.edge (val_main_v20 (F := Ideal) x0 x1 x3 x4 x5 x6 x7 x8)
          (val_main_v31 (F := Ideal) x0 x2 x3 x4 x5 x6 x7 x8)
          x9 (fun j => x10 (ix1 j)) x11 (fun j => x12 (ix1 j)) := by
  funext i
  obtain ⟨e, q, rfl⟩ : ∃ (e : Fin 1600000) (q : Fin 64), i = ix2 e q := ⟨i 0, i 1, eq_ix2 i⟩
  rw [Cert.Spec.edge_ix2, val_main_v48_apply, val_main_v47_apply, val_main_v46_apply, val_main_v45_apply,
    val_main_cst_5_apply, val_main_v44_apply, val_main_v43_apply, val_main_cst_4_apply, val_main_v42_apply,
    val_main_v41_apply, val_main_v40_apply, val_main_v39_apply, val_main_cst_3_apply, val_main_v38_apply,
    val_main_v37_apply, val_main_cst_apply]
  have e1 : ∀ k : Fin 64, idx_main_v37 (idx_main_v38 (idx_main_v47 (ix2 e q))) k = ix2 e k := fun k =>
    funext fun a => Fin.ext (by match a with | ⟨0, _⟩ => rfl | ⟨1, _⟩ => rfl)
  simp only [e1, val_main_v36_apply, v24_ix2, v35_ix2]
  generalize val_main_v20 (F := Ideal) x0 x1 x3 x4 x5 x6 x7 x8 = S
  generalize val_main_v31 (F := Ideal) x0 x2 x3 x4 x5 x6 x7 x8 = D
  simp only [Ideal.ofBits_def, Ideal.ofBits_zero_f32, Ideal.ofBits_one_f32, zero_add]
  rfl

end Cert.ReferenceIdeal.RefValue

end
-- ==== Proof.Assemble.lean ====
/-
  The two idealized programs compute one function of the launched arrays.

  With H the node network of the feature table (the specification's `mlp`), both programs gather H's rows at the
  source and at the destination indices, form the gated message of every edge from the two gathered rows (the
  specification's `edge`), sum the messages into their destination rows and put the sums beside H. The kernel
  program reaches H and the messages through two pipelined regions, block by block, and takes rows with a fill
  for indices outside the table, which the precondition's index ranges rule out; the reference reaches them
  through whole-array host operations. Neither side needs a law of the extended reals beyond those its own
  modules cite.
-/
import proofs.«426639_j49065706389960_1_alg».proof.Defs
import proofs.«426639_j49065706389960_1_alg».proof.Proof.RunMain
import proofs.«426639_j49065706389960_1_alg».proof.Proof.GlueHost
import proofs.«426639_j49065706389960_1_alg».proof.Proof.Region0Value
import proofs.«426639_j49065706389960_1_alg».proof.Proof.Region1Value
import proofs.«426639_j49065706389960_1_alg».proof.Proof.IndexRange
import proofs.«426639_j49065706389960_1_alg».proof.Proof.RefSide

set_option maxRecDepth 16384

noncomputable section

namespace Cert.Proof.Assemble

open Cert.KernelIdeal Cert.KernelIdeal.Gen Cert.KernelIdeal.Glue
open Idealize.ShloMosaic Idealize.ShloMosaic.TcCoe Idealize.SL.Sem Idealize.ShloMosaic.ValueIdx

/-- The whole result as one function of the thirteen argument arrays. -/
def G (x0 : FVec Ideal S100000x128 .f32) (x1 x2 : IVec S1600000 32)
    (x3 : FVec Ideal S128x256 .f32) (x4 : FVec Ideal S256 .f32) (x5 : FVec Ideal S256x512 .f32) (x6 : FVec Ideal S512 .f32)
    (x7 : FVec Ideal S512x64 .f32) (x8 : FVec Ideal S64 .f32) (x9 : FVec Ideal S64x64 .f32) (x10 : FVec Ideal S64 .f32)
    (x11 : FVec Ideal S64x64 .f32) (x12 : FVec Ideal S64 .f32) : FVec Ideal S100000x128 .f32 :=
  finish (Cert.Spec.mlp x0 x3 (fun j => x4 (ix1 j)) x5 (fun j => x6 (ix1 j)) x7 (fun j => x8 (ix1 j))) x2
    (Cert.Spec.edge
      (Host.gather gather_S100000x64_S1600000x1_S1600000x64_1_0_n_n_0_1_164
        (Cert.Spec.mlp x0 x3 (fun j => x4 (ix1 j)) x5 (fun j => x6 (ix1 j)) x7 (fun j => x8 (ix1 j))) (wcol x1))
      (Host.gather gather_S100000x64_S1600000x1_S1600000x64_1_0_n_n_0_1_164
        (Cert.Spec.mlp x0 x3 (fun j => x4 (ix1 j)) x5 (fun j => x6 (ix1 j)) x7 (fun j => x8 (ix1 j))) (wcol x2))
      x9 (fun j => x10 (ix1 j)) x11 (fun j => x12 (ix1 j)))

section Kernel

variable (m : (ℓ : Loc nD τ sig) → Buf (Elt Ideal) ℓ) (ρ : Dev nD → PrngReg)

/-- Region 0 leaves the node network of the launched features in its output table. -/
theorem table_eq (c : Dev nD) :
    W2 m ρ c (Proc.devRef .tc main_v3)
      = Cert.Spec.mlp (m ((c : Thread nD τ).loc main_arg0)) (m ((c : Thread nD τ).loc main_arg3))
          (fun j => m ((c : Thread nD τ).loc main_arg4) (ix1 j)) (m ((c : Thread nD τ).loc main_arg5))
          (fun j => m ((c : Thread nD τ).loc main_arg6) (ix1 j)) (m ((c : Thread nD τ).loc main_arg7))
          (fun j => m ((c : Thread nD τ).loc main_arg8) (ix1 j)) := by
  refine (W2_arr m ρ c 7).trans ?_
  rw [Cert.KernelIdeal.Region0.final0 (V1 m ρ) c, entry0_arg0, entry0_arg3, entry0_arg5, entry0_arg7, entry0_bias1,
    entry0_bias2, entry0_bias3]

/-- Under the index ranges, region 1 leaves the gated messages of the rows gathered from that table. -/
theorem messages_eq (c : Dev nD) (hs : Cert.IndexRange.InRange (m ((c : Thread nD τ).loc main_arg1)))
    (hd : Cert.IndexRange.InRange (m ((c : Thread nD τ).loc main_arg2))) :
    W6 m ρ c (Proc.devRef .tc main_v8)
      = Cert.Spec.edge
          (Host.gather gather_S100000x64_S1600000x1_S1600000x64_1_0_n_n_0_1_164 (W2 m ρ c (Proc.devRef .tc main_v3))
            (wcol (m ((c : Thread nD τ).loc main_arg1))))
          (Host.gather gather_S100000x64_S1600000x1_S1600000x64_1_0_n_n_0_1_164 (W2 m ρ c (Proc.devRef .tc main_v3))
            (wcol (m ((c : Thread nD τ).loc main_arg2))))
          (m ((c : Thread nD τ).loc main_arg9)) (fun j => m ((c : Thread nD τ).loc main_arg10) (ix1 j))
          (m ((c : Thread nD τ).loc main_arg11)) (fun j => m ((c : Thread nD τ).loc main_arg12) (ix1 j)) := by
  refine (W6_arr m ρ c 6).trans ?_
  rw [Cert.KernelIdeal.Region1.final1 (V5 m ρ) c, entry1_v4, entry1_v5, W5_arg9, W5_arg11, entry1_bias_s, entry1_bias_d,
    W2_arg1, W2_arg2]
  generalize W2 m ρ c (Proc.devRef .tc main_v3) = T
  unfold takeFill wcol wrapIdx
  rw [Cert.IndexRange.fill_eq_gather _ hs bcast_S_S1600000 bcast_S1600000_S1600000x1_0 bcast_S_S1600000x1 bcast_S1_S1x1_1
      bcast_S1x1_S1600000x1_0_1 reducesTo_S1600000x1_S1600000_d1 h_S_ bcast_S1600000_S1600000x64_0,
    Cert.IndexRange.fill_eq_gather _ hd bcast_S_S1600000 bcast_S1600000_S1600000x1_0 bcast_S_S1600000x1 bcast_S1_S1x1_1
      bcast_S1x1_S1600000x1_0_1 reducesTo_S1600000x1_S1600000_d1 h_S_ bcast_S1600000_S1600000x64_0]

/-- The kernel program's result buffer after the run. -/
theorem kernel_result (c : Dev nD) (hs : Cert.IndexRange.InRange (m ((c : Thread nD τ).loc main_arg1)))
    (hd : Cert.IndexRange.InRange (m ((c : Thread nD τ).loc main_arg2))) :
    W7 m ρ c (Proc.devRef .tc main_v12)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) := by
  rw [result_eq, W6_v3, W6_arg2, messages_eq m ρ c hs hd, table_eq]
  rfl

end Kernel

/-- The reference's last stage is the same function of its arguments. -/
theorem ref_result (x0 : FVec Ideal S100000x128 .f32) (x1 x2 : IVec S1600000 32)
    (x3 : FVec Ideal S128x256 .f32) (x4 : FVec Ideal S256 .f32) (x5 : FVec Ideal S256x512 .f32) (x6 : FVec Ideal S512 .f32)
    (x7 : FVec Ideal S512x64 .f32) (x8 : FVec Ideal S64 .f32) (x9 : FVec Ideal S64x64 .f32) (x10 : FVec Ideal S64 .f32)
    (x11 : FVec Ideal S64x64 .f32) (x12 : FVec Ideal S64 .f32) :
    Cert.ReferenceIdeal.Read.val_main_v52 (F := Ideal) x0 x1 x2 x3 x4 x5 x6 x7 x8 x9 x10 x11 x12
      = G x0 x1 x2 x3 x4 x5 x6 x7 x8 x9 x10 x11 x12 := by
  unfold Cert.ReferenceIdeal.Read.val_main_v52 Cert.ReferenceIdeal.Read.val_main_v51
  rw [Cert.ReferenceIdeal.RefValue.v48_eq, Cert.ReferenceIdeal.RefValue.v13_eq]
  unfold Cert.ReferenceIdeal.Read.val_main_v20 Cert.ReferenceIdeal.Read.val_main_v31
  rw [Cert.ReferenceIdeal.RefValue.v13_eq]
  rfl

end Cert.Proof.Assemble

end
-- ==== Proof.lean ====
/-
  The certificate's five claims for the edge-gated message-passing kernel against its jnp reference.

  Frames. The word-level and the idealized kernel program each run two pipelined regions among host operations;
  their frames are the generated ones. The reference is a host program; its frame is its run with the result
  dropped.

  Preservation is trivial: the ideal pass rewrote nothing.

  The algebraic claim, under the precondition (finite float inputs, and every source and destination index in
  the node table's range [0, 100000)). Both programs end at ONE function G of the thirteen argument arrays
  (Proof/Assemble.lean): the node network H of the feature table, H's rows gathered at the source and at the
  destination indices, the gated message of every edge from its two gathered rows, the messages summed into their
  destination rows, and the sums beside H. The kernel program's run ends with its result buffer at the last host
  stretch's contents, which the host side, read buffer by buffer, and the two regions' output tables, read block
  by block, bring to G; the index ranges are used once, to see that the kernel program's fill of out-of-range
  rows never happens. The reference's last stage is G by reading its operations at an index. The two memories
  agree on the arguments, so the two results are equal.
-/
import proofs.«426639_j49065706389960_1_alg».proof.Defs
import proofs.«426639_j49065706389960_1_alg».proof.Proof.Gen.Kernel
import proofs.«426639_j49065706389960_1_alg».proof.Proof.Gen.Kernel.Frame
import proofs.«426639_j49065706389960_1_alg».proof.Proof.Gen.KernelIdeal
import proofs.«426639_j49065706389960_1_alg».proof.Proof.Gen.KernelIdeal.Frame
import proofs.«426639_j49065706389960_1_alg».proof.Proof.Gen.ReferenceIdeal
import proofs.«426639_j49065706389960_1_alg».proof.Proof.Gen.ReferenceIdeal.Run
import proofs.«426639_j49065706389960_1_alg».proof.Proof.Gen.ReferenceIdeal.Read
import proofs.«426639_j49065706389960_1_alg».proof.Proof.Gen.Pre_finite_inputs
import proofs.«426639_j49065706389960_1_alg».proof.Proof.Assemble
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `Assemble.G` of the kernel side's argument arrays. -/
theorem algebraic : Cert.algebraic_KernelIdeal_ReferenceIdeal := by
  intro m ρ m' ρ' hpre hagree
  have hr : ∀ c : Dev Cert.KernelIdeal.nD,
      Cert.IndexRange.InRange (m ((c.tc : Thread Cert.KernelIdeal.nD Cert.KernelIdeal.τ).loc Cert.KernelIdeal.main_arg1))
        ∧ Cert.IndexRange.InRange (m ((c.tc : Thread Cert.KernelIdeal.nD Cert.KernelIdeal.τ).loc Cert.KernelIdeal.main_arg2)) :=
    fun c => Cert.IndexRange.inRange_of_pre _ _ _ _ _ _ _ _ _ _ _ _ _ (hpre c)
  refine ⟨fun c => Assemble.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Assemble.kernel_result m ρ c (hr c).1 (hr c).2), (h c).2⟩)
      (Cert.KernelIdeal.RunMain.run_main m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v52_eq, Assemble.ref_result]
    obtain ⟨e0, e1, e2, e3, e4, e5, e6, e7, e8, e9, e10, e11, e12⟩ := hagree c
    rw [e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
